-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x8x4096x128 : Shape := ⟨5, ![2, 8, 8, 4096, 128]⟩
abbrev S2x8x8x1x128 : Shape := ⟨5, ![2, 8, 8, 1, 128]⟩
abbrev S8x1 : Shape := ⟨2, ![8, 1]⟩
abbrev S_ : Shape := ⟨0, ![]⟩

class Facts : Prop where
  bcast_S_S2x8x8x4096x128 : S_.BroadcastsInDim S2x8x8x4096x128 (![] : Fin 0 → Fin S2x8x8x4096x128.rank)
  reducesTo_S2x8x8x4096x128_S_d0_1_2_3_4 : S2x8x8x4096x128.ReducesTo [0, 1, 2, 3, 4] S_
  h_S_ : 0 < S_.numel
  bcast_S_S2x8x8x1x128 : S_.BroadcastsInDim S2x8x8x1x128 (![] : Fin 0 → Fin S2x8x8x1x128.rank)
  reducesTo_S2x8x8x1x128_S_d0_1_2_3_4 : S2x8x8x1x128.ReducesTo [0, 1, 2, 3, 4] S_
  bcast_S_S8x1 : S_.BroadcastsInDim S8x1 (![] : Fin 0 → Fin S8x1.rank)
  reducesTo_S8x1_S_d0_1 : S8x1.ReducesTo [0, 1] S_

variable [Facts]

def fn_part1 {F : FTy → Type} [FloatOps F] (main_arg4 : IVec S8x1 32) (main_v13 : IVec S_ 1) (main_v16 : IVec S2x8x8x1x128 1) : IVec S_ 1 :=
  let main_c_5 : IVec S_ 1 := constantI S_ 1 1#1
  let main_v17 : IVec S_ 1 := (fun x v => Host.reduce IntOp.andi x v reducesTo_S2x8x8x1x128_S_d0_1_2_3_4 h_S_) main_v16 main_c_5
  let main_v18 : IVec S_ 1 := andi main_v13 main_v17
  let main_c_6 : IVec S_ 32 := constantI S_ 32 0#32
  let main_v19 : IVec S8x1 32 := broadcastInDim S8x1 ![] bcast_S_S8x1 main_c_6
  let main_v20 : IVec S8x1 1 := cmpi .sge main_arg4 main_v19
  let main_c_7 : IVec S_ 32 := constantI S_ 32 4096#32
  let main_v21 : IVec S8x1 32 := broadcastInDim S8x1 ![] bcast_S_S8x1 main_c_7
  let main_v22 : IVec S8x1 1 := cmpi .slt main_arg4 main_v21
  let main_v23 : IVec S8x1 1 := andi main_v20 main_v22
  let main_c_8 : IVec S_ 1 := constantI S_ 1 1#1
  let main_v24 : IVec S_ 1 := (fun x v => Host.reduce IntOp.andi x v reducesTo_S8x1_S_d0_1 h_S_) main_v23 main_c_8
  let main_v25 : IVec S_ 1 := andi main_v18 main_v24
  main_v25

def fn {F : FTy → Type} [FloatOps F] (main_arg0 : FVec F S2x8x8x4096x128 .f32) (main_arg1 : FVec F S2x8x8x4096x128 .f32) (main_arg2 : FVec F S2x8x8x1x128 .f32) (main_arg3 : FVec F S2x8x8x1x128 .f32) (main_arg4 : IVec S8x1 32) : IVec S_ 1 :=
  let main_v0 : FVec F S2x8x8x4096x128 .f32 := Host.absf main_arg0
  let main_cst : FVec F S_ .f32 := constant S_ .f32 0x7F800000#32
  let main_v1 : FVec F S2x8x8x4096x128 .f32 := broadcastInDim S2x8x8x4096x128 ![] bcast_S_S2x8x8x4096x128 main_cst
  let main_v2 : IVec S2x8x8x4096x128 1 := cmpf .olt main_v0 main_v1
  let main_c : IVec S_ 1 := constantI S_ 1 1#1
  let main_v3 : IVec S_ 1 := (fun x v => Host.reduce IntOp.andi x v reducesTo_S2x8x8x4096x128_S_d0_1_2_3_4 h_S_) main_v2 main_c
  let main_v4 : FVec F S2x8x8x4096x128 .f32 := Host.absf main_arg1
  let main_cst_0 : FVec F S_ .f32 := constant S_ .f32 0x7F800000#32
  let main_v5 : FVec F S2x8x8x4096x128 .f32 := broadcastInDim S2x8x8x4096x128 ![] bcast_S_S2x8x8x4096x128 main_cst_0
  let main_v6 : IVec S2x8x8x4096x128 1 := cmpf .olt main_v4 main_v5
  let main_c_1 : IVec S_ 1 := constantI S_ 1 1#1
  let main_v7 : IVec S_ 1 := (fun x v => Host.reduce IntOp.andi x v reducesTo_S2x8x8x4096x128_S_d0_1_2_3_4 h_S_) main_v6 main_c_1
  let main_v8 : IVec S_ 1 := andi main_v3 main_v7
  let main_v9 : FVec F S2x8x8x1x128 .f32 := Host.absf main_arg2
  let main_cst_2 : FVec F S_ .f32 := constant S_ .f32 0x7F800000#32
  let main_v10 : FVec F S2x8x8x1x128 .f32 := broadcastInDim S2x8x8x1x128 ![] bcast_S_S2x8x8x1x128 main_cst_2
  let main_v11 : IVec S2x8x8x1x128 1 := cmpf .olt main_v9 main_v10
  let main_c_3 : IVec S_ 1 := constantI S_ 1 1#1
  let main_v12 : IVec S_ 1 := (fun x v => Host.reduce IntOp.andi x v reducesTo_S2x8x8x1x128_S_d0_1_2_3_4 h_S_) main_v11 main_c_3
  let main_v13 : IVec S_ 1 := andi main_v8 main_v12
  let main_v14 : FVec F S2x8x8x1x128 .f32 := Host.absf main_arg3
  let main_cst_4 : FVec F S_ .f32 := constant S_ .f32 0x7F800000#32
  let main_v15 : FVec F S2x8x8x1x128 .f32 := broadcastInDim S2x8x8x1x128 ![] bcast_S_S2x8x8x1x128 main_cst_4
  let main_v16 : IVec S2x8x8x1x128 1 := cmpf .olt main_v14 main_v15
  fn_part1 (F := F) main_arg4 main_v13 main_v16
-- ==== Kernel.lean ====
abbrev S2x8x8x4096x128 : Shape := ⟨5, ![2, 8, 8, 4096, 128]⟩
abbrev S2x8x8x1x128 : Shape := ⟨5, ![2, 8, 8, 1, 128]⟩
abbrev S8x1 : Shape := ⟨2, ![8, 1]⟩
abbrev S8 : Shape := ⟨1, ![8]⟩
abbrev S1x1x1x4096x128 : Shape := ⟨5, ![1, 1, 1, 4096, 128]⟩
abbrev S1x1x1x1x128 : Shape := ⟨5, ![1, 1, 1, 1, 128]⟩
abbrev S1 : Shape := ⟨1, ![1]⟩
abbrev S4096x128 : Shape := ⟨2, ![4096, 128]⟩
abbrev S128 : Shape := ⟨1, ![128]⟩
abbrev S1x128 : Shape := ⟨2, ![1, 128]⟩
abbrev S1x2x8x8x4096x128 : Shape := ⟨6, ![1, 2, 8, 8, 4096, 128]⟩
abbrev S2x2x8x8x4096x128 : Shape := ⟨6, ![2, 2, 8, 8, 4096, 128]⟩

abbrev nBuf : Space → Nat
  | .hbm => 10
  | .vmem => 12
  | .smem => 1
  | _ => 0

abbrev bufTy : (tb : Table) → Fin (tcTables nBuf tb) → BufTy
  | .hbm, ⟨0, _⟩ => ⟨S2x8x8x4096x128, .f32⟩
  | .hbm, ⟨1, _⟩ => ⟨S2x8x8x4096x128, .f32⟩
  | .hbm, ⟨2, _⟩ => ⟨S2x8x8x1x128, .f32⟩
  | .hbm, ⟨3, _⟩ => ⟨S2x8x8x1x128, .f32⟩
  | .hbm, ⟨4, _⟩ => ⟨S8x1, .i32⟩
  | .hbm, ⟨5, _⟩ => ⟨S2x8x8x4096x128, .f32⟩
  | .hbm, ⟨6, _⟩ => ⟨S2x8x8x4096x128, .f32⟩
  | .hbm, ⟨7, _⟩ => ⟨S1x2x8x8x4096x128, .f32⟩
  | .hbm, ⟨8, _⟩ => ⟨S1x2x8x8x4096x128, .f32⟩
  | .hbm, ⟨9, _⟩ => ⟨S2x2x8x8x4096x128, .f32⟩
  | .local _ .vmem, ⟨0, _⟩ => ⟨S1x1x1x4096x128, .f32⟩
  | .local _ .vmem, ⟨1, _⟩ => ⟨S1x1x1x4096x128, .f32⟩
  | .local _ .vmem, ⟨2, _⟩ => ⟨S1x1x1x1x128, .f32⟩
  | .local _ .vmem, ⟨3, _⟩ => ⟨S1x1x1x1x128, .f32⟩
  | .local _ .vmem, ⟨4, _⟩ => ⟨S1x1x1x4096x128, .f32⟩
  | .local _ .vmem, ⟨5, _⟩ => ⟨S1x1x1x4096x128, .f32⟩
  | .local _ .vmem, ⟨6, _⟩ => ⟨S1x1x1x4096x128, .f32⟩
  | .local _ .vmem, ⟨7, _⟩ => ⟨S1x1x1x4096x128, .f32⟩
  | .local _ .vmem, ⟨8, _⟩ => ⟨S1x1x1x1x128, .f32⟩
  | .local _ .vmem, ⟨9, _⟩ => ⟨S1x1x1x1x128, .f32⟩
  | .local _ .vmem, ⟨10, _⟩ => ⟨S1x1x1x4096x128, .f32⟩
  | .local _ .vmem, ⟨11, _⟩ => ⟨S1x1x1x4096x128, .f32⟩
  | .local _ .smem, ⟨0, _⟩ => ⟨S8, .i32⟩
  | _, _ => ⟨S2x8x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 8, 8], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![2, 8, 8], ![false, false, false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage1_0 : Fin 2 → Memref sig .tc .vmem S1x1x1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S8x1_S8 : S8x1.ShapeCasts S8
  numel1_S1 : S1.numel = 1
  inb_S1x1x1x4096x128_S1x1x1x4096x128_0_0_0_0_0 : ∀ a, (![0, 0, 0, 0, 0] : Fin 5 → Nat) a + S1x1x1x4096x128.size a ≤ S1x1x1x4096x128.size a
  h_S1x1x1x4096x128 : 0 < S1x1x1x4096x128.numel
  shapeCasts_S1x1x1x4096x128_S4096x128 : S1x1x1x4096x128.ShapeCasts S4096x128
  inb_S1x1x1x1x128_S1x1x1x1x128_0_0_0_0_0 : ∀ a, (![0, 0, 0, 0, 0] : Fin 5 → Nat) a + S1x1x1x1x128.size a ≤ S1x1x1x1x128.size a
  h_S1x1x1x1x128 : 0 < S1x1x1x1x128.numel
  shapeCasts_S1x1x1x1x128_S128 : S1x1x1x1x128.ShapeCasts S128
  iota_S4096x128_d0_w32 : S4096x128.Iotas .tc 32 [0]
  shapeCasts_S128_S1x128 : S128.ShapeCasts S1x128
  shapeCasts_S1x128_S1x128 : S1x128.ShapeCasts S1x128
  broadcasts_S1x128_S4096x128 : S1x128.Broadcasts S4096x128
  shapeCasts_S4096x128_S1x1x1x4096x128 : S4096x128.ShapeCasts S1x1x1x4096x128
  bcast_S2x8x8x4096x128_S1x2x8x8x4096x128_1_2_3_4_5 : S2x8x8x4096x128.BroadcastsInDim S1x2x8x8x4096x128 (![1, 2, 3, 4, 5] : Fin 5 → Fin S1x2x8x8x4096x128.rank)
  concatenates_S1x2x8x8x4096x128_S1x2x8x8x4096x128_S2x2x8x8x4096x128_d0 : Shape.Concatenates [S1x2x8x8x4096x128, S1x2x8x8x4096x128] S2x2x8x8x4096x128 0
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x4096x128.size a ≤ S2x8x8x4096x128.size a
  hwx0_0 : ∀ i : grid0.Coords, EltTy.bits .f32 = 32 ∨ (Rect.block (s := S2x8x8x4096x128) S1x1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1x128.size a ≤ S2x8x8x1x128.size a
  hwx0_1 : ∀ i : grid0.Coords, EltTy.bits .f32 = 32 ∨ (Rect.block (s := S2x8x8x1x128) S1x1x1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x4096x128.size a ≤ S2x8x8x4096x128.size a
  hwx0_2 : ∀ i : grid0.Coords, EltTy.bits .f32 = 32 ∨ (Rect.block (s := S2x8x8x4096x128) S1x1x1x4096x128.size (cc0_transform_2 i) (hinb0_2 i)).WholeWords (EltTy.packing .f32)
  hrank1 : 0 < grid1.rank
  k1_off1_inb : ∀ i : grid1.Coords, ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1x4096x128.size a ≤ S2x8x8x4096x128.size a
  hwx1_0 : ∀ i : grid1.Coords, EltTy.bits .f32 = 32 ∨ (Rect.block (s := S2x8x8x4096x128) S1x1x1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x1x128.size a ≤ S2x8x8x1x128.size a
  hwx1_1 : ∀ i : grid1.Coords, EltTy.bits .f32 = 32 ∨ (Rect.block (s := S2x8x8x1x128) S1x1x1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1x4096x128.size a ≤ S2x8x8x4096x128.size a
  hwx1_2 : ∀ i : grid1.Coords, EltTy.bits .f32 = 32 ∨ (Rect.block (s := S2x8x8x4096x128) S1x1x1x4096x128.size (cc1_transform_2 i) (hinb1_2 i)).WholeWords (EltTy.packing .f32)

variable [Facts₀]

abbrev spec0_0 : Pipeline.WinSpec sig grid0.rank :=
  Pipeline.WinSpec.ofSpec (Memref.whole main_arg0) S1x1x1x4096x128.size reads0_0 false false 2 stage0_0 sem0_0 nbuf0_0 hstage0_0

abbrev spec0_1 : Pipeline.WinSpec sig grid0.rank :=
  Pipeline.WinSpec.ofSpec (Memref.whole main_arg2) S1x1x1x1x128.size reads0_1 false false 2 stage0_1 sem0_1 nbuf0_1 hstage0_1

abbrev spec0_2 : Pipeline.WinSpec sig grid0.rank :=
  Pipeline.WinSpec.ofSpec (Memref.whole main_v1) S1x1x1x4096x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_arg1) S1x1x1x4096x128.size reads1_0 false false 2 stage1_0 sem1_0 nbuf1_0 hstage1_0

abbrev spec1_1 : Pipeline.WinSpec sig grid1.rank :=
  Pipeline.WinSpec.ofSpec (Memref.whole main_arg3) S1x1x1x1x128.size reads1_1 false false 2 stage1_1 sem1_1 nbuf1_1 hstage1_1

abbrev spec1_2 : Pipeline.WinSpec sig grid1.rank :=
  Pipeline.WinSpec.ofSpec (Memref.whole main_v2) S1x1x1x4096x128.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S2x8x8x4096x128 : Shape := ⟨5, ![2, 8, 8, 4096, 128]⟩
abbrev S2x8x8x1x128 : Shape := ⟨5, ![2, 8, 8, 1, 128]⟩
abbrev S8x1 : Shape := ⟨2, ![8, 1]⟩
abbrev S8 : Shape := ⟨1, ![8]⟩
abbrev S8x1x2x8x128 : Shape := ⟨5, ![8, 1, 2, 8, 128]⟩
abbrev S_ : Shape := ⟨0, ![]⟩
abbrev S8x1x1 : Shape := ⟨3, ![8, 1, 1]⟩
abbrev S8x1x2 : Shape := ⟨3, ![8, 1, 2]⟩
abbrev S1x2x8x8x4096x128 : Shape := ⟨6, ![1, 2, 8, 8, 4096, 128]⟩
abbrev S2x2x8x8x4096x128 : Shape := ⟨6, ![2, 2, 8, 8, 4096, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8x8x4096x128, .f32⟩
  | .hbm, ⟨1, _⟩ => ⟨S2x8x8x4096x128, .f32⟩
  | .hbm, ⟨2, _⟩ => ⟨S2x8x8x1x128, .f32⟩
  | .hbm, ⟨3, _⟩ => ⟨S2x8x8x1x128, .f32⟩
  | .hbm, ⟨4, _⟩ => ⟨S8x1, .i32⟩
  | .hbm, ⟨5, _⟩ => ⟨S8, .i32⟩
  | .hbm, ⟨6, _⟩ => ⟨S8x1, .i32⟩
  | .hbm, ⟨7, _⟩ => ⟨S8x1x2x8x128, .f32⟩
  | .hbm, ⟨8, _⟩ => ⟨S8x1x2x8x128, .f32⟩
  | .hbm, ⟨9, _⟩ => ⟨S_, .i32⟩
  | .hbm, ⟨10, _⟩ => ⟨S8x1, .i32⟩
  | .hbm, ⟨11, _⟩ => ⟨S8x1, .i1⟩
  | .hbm, ⟨12, _⟩ => ⟨S_, .i32⟩
  | .hbm, ⟨13, _⟩ => ⟨S8x1, .i32⟩
  | .hbm, ⟨14, _⟩ => ⟨S8x1, .i32⟩
  | .hbm, ⟨15, _⟩ => ⟨S8x1, .i32⟩
  | .hbm, ⟨16, _⟩ => ⟨S_, .i32⟩
  | .hbm, ⟨17, _⟩ => ⟨S8x1, .i32⟩
  | .hbm, ⟨18, _⟩ => ⟨S8x1, .i1⟩
  | .hbm, ⟨19, _⟩ => ⟨S_, .i32⟩
  | .hbm, ⟨20, _⟩ => ⟨S8x1, .i32⟩
  | .hbm, ⟨21, _⟩ => ⟨S8x1, .i32⟩
  | .hbm, ⟨22, _⟩ => ⟨S8x1, .i32⟩
  | .hbm, ⟨23, _⟩ => ⟨S8x1x1, .i32⟩
  | .hbm, ⟨24, _⟩ => ⟨S8x1x1, .i32⟩
  | .hbm, ⟨25, _⟩ => ⟨S8x1x2, .i32⟩
  | .hbm, ⟨26, _⟩ => ⟨S2x8x8x4096x128, .f32⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x1, .i32⟩
  | .hbm, ⟨36, _⟩ => ⟨S8x1, .i1⟩
  | .hbm, ⟨37, _⟩ => ⟨S_, .i32⟩
  | .hbm, ⟨38, _⟩ => ⟨S8x1, .i32⟩
  | .hbm, ⟨39, _⟩ => ⟨S8x1, .i32⟩
  | .hbm, ⟨40, _⟩ => ⟨S8x1, .i32⟩
  | .hbm, ⟨41, _⟩ => ⟨S8x1x1, .i32⟩
  | .hbm, ⟨42, _⟩ => ⟨S8x1x1, .i32⟩
  | .hbm, ⟨43, _⟩ => ⟨S8x1x2, .i32⟩
  | .hbm, ⟨44, _⟩ => ⟨S2x8x8x4096x128, .f32⟩
  | .hbm, ⟨45, _⟩ => ⟨S1x2x8x8x4096x128, .f32⟩
  | .hbm, ⟨46, _⟩ => ⟨S1x2x8x8x4096x128, .f32⟩
  | .hbm, ⟨47, _⟩ => ⟨S2x2x8x8x4096x128, .f32⟩
  | _, _ => ⟨S2x8x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  transposes_S2x8x8x1x128_S8x1x2x8x128_1_3_0_2_4 : S2x8x8x1x128.Transposes [1, 3, 0, 2, 4] S8x1x2x8x128
  bcast_S_S8x1 : S_.BroadcastsInDim S8x1 (![] : Fin 0 → Fin S8x1.rank)
  bcast_S8x1_S8x1x1_0_1 : S8x1.BroadcastsInDim S8x1x1 (![0, 1] : Fin 2 → Fin S8x1x1.rank)
  concatenates_S8x1x1_S8x1x1_S8x1x2_d2 : Shape.Concatenates [S8x1x1, S8x1x1] S8x1x2 2
  bcast_S2x8x8x4096x128_S1x2x8x8x4096x128_1_2_3_4_5 : S2x8x8x4096x128.BroadcastsInDim S1x2x8x8x4096x128 (![1, 2, 3, 4, 5] : Fin 5 → Fin S1x2x8x8x4096x128.rank)
  concatenates_S1x2x8x8x4096x128_S1x2x8x8x4096x128_S2x2x8x8x4096x128_d0 : Shape.Concatenates [S1x2x8x8x4096x128, S1x2x8x8x4096x128] S2x2x8x8x4096x128 0
  scatter_S2x8x8x4096x128_S8x1x2_S8x1x2x8x128_234_13_13_2_wf : ScatterDims.WF S2x8x8x4096x128 S8x1x2 S8x1x2x8x128 [2, 3, 4] [1, 3] [1, 3] 2

variable [Facts₀]

def scatter_S2x8x8x4096x128_S8x1x2_S8x1x2x8x128_234_13_13_2 : ScatterDims S2x8x8x4096x128 S8x1x2 S8x1x2x8x128 where
  updateWindowDims := [2, 3, 4]
  insertedWindowDims := [1, 3]
  scatterDimsToOperandDims := [1, 3]
  indexVectorDim := 2
  wf := scatter_S2x8x8x4096x128_S8x1x2_S8x1x2x8x128_234_13_13_2_wf

class Facts : Prop extends Facts₀ where

variable [Facts]
-- ==== Proof.KBitsRegions.lean ====
/-
  The two pallas calls of the kernel program, one at a time, at any buffer contents `V` they may be entered with and any
  contents of the prefetched table of positions: what the body leaves in its output buffer, the body's triple, the pipeline's
  proof data and the body obligation.
-/
import proofs.«414916_j8864812499506_1_alg».proof.Proof.Gen.Kernel.Launch
import proofs.«414916_j8864812499506_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched table of positions, as the body is handed it: the whole scalar-memory buffer. -/
abbrev tbM : Memref sig .tc .smem S8 .i32 := Memref.whole main_v0
abbrev htbM : tbM.IsWhole := Memref.isWhole_whole _
abbrev TbBuf (c : Dev nD) : Type := Buf (Elt F) (tbM.view.loc (c : Thread nD τ))
/-- The table held whole at contents `f`. -/
abbrev tbPt (c : Dev nD) (f : TbBuf (F := F) c) : sProp 𝕄 := tbM.view.loc (c : Thread nD τ) ↦{fullShare} f

/-- The body's accesses: the whole staged table, the whole staged row. -/
abbrev rC : Rect S1x1x1x4096x128 := Rect.unit (s := S1x1x1x4096x128) ![0, 0, 0, 0, 0] S1x1x1x4096x128.size inb_S1x1x1x4096x128_S1x1x1x4096x128_0_0_0_0_0
abbrev rN : Rect S1x1x1x1x128 := Rect.unit (s := S1x1x1x1x128) ![0, 0, 0, 0, 0] S1x1x1x1x128.size inb_S1x1x1x1x128_S1x1x1x1x128_0_0_0_0_0

/-! # Pallas call 0: one (layer, batch entry, head) table per grid point

The grid is (layer, batch entry, head) = 2 × 8 × 8. At a point the pipeline stages the cache's 4096 × 128 table and the new
token's 128-lane row for that layer, batch entry and head; the body reads the batch entry's row number off the prefetched
table of positions, and writes back the table with that one row replaced. -/

section Region0

variable (a0 : (pcfg0 (F := F)).Adm)
-- the buffer contents the region is entered with
variable (V : (c : Dev nD) → (b : Ref sig .tc) → Buf (Elt F) ((c : Thread nD τ).loc b))

/-- The staging memref each window is on at point `t`, and the body as the pipeline calls it there. -/
abbrev st0_0 (t : Fin (cfg0 a0).N) := ((cfg0 a0).win 0).stage ((cfg0 a0).slots t 0)
abbrev st0_1 (t : Fin (cfg0 a0).N) := ((cfg0 a0).win 1).stage ((cfg0 a0).slots t 1)
abbrev st0_2 (t : Fin (cfg0 a0).N) := ((cfg0 a0).win 2).stage ((cfg0 a0).slots t 2)
abbrev bodyAt0 (t : Fin (cfg0 a0).N) : Prog (TpuEff nD τ sig (Elt F) Λ₀ .tc) PUnit :=
  cc0__scatter_kernel (grid0.coords t) tbM htbM
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- An input window's staging buffer holds its block at every point, fetched there or not: the blocks tile the array and
    the body leaves the buffer as it found it. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The row number the body reads at grid point `i`: the positions' word of the point's batch entry. -/
def posWord0 (c : Dev nD) (i : grid0.Coords) (xt : TbBuf (F := F) c) : Elt F .i32 :=
  tbM.view.readAt (Elt F) (Rect.unit (s := S8) (k0_off1 i) S1.size (k0_off1_inb i)).toLoadRect xt (Shape.Idx.first (numel1_S1.symm ▸ Nat.one_pos))

/-- What the body leaves in the output window's staging buffer: its one store, of the table with the row replaced. -/
def out0_2 (c : Dev nD) (i : grid0.Coords) (xt : TbBuf (F := F) c) (x0 : Vec F S1x1x1x4096x128 .f32) (x1 : Vec F S1x1x1x1x128 .f32) :
    Vec F S1x1x1x4096x128 .f32 :=
  View.canon [⟨rC, k0_pay1 (posWord0 c i xt) (View.ld x0 rC) (View.ld x1 rN)⟩]

/-- The one store covers the buffer. -/
theorem cover0_2 (p0 : Vec F S1x1x1x4096x128 .f32) (y : S1x1x1x4096x128.Idx) :
    ∃ pc ∈ ([⟨rC, p0⟩] : List (View.Piece (Elt F) S1x1x1x4096x128 .f32)), y ∈ pc.1.set :=
  View.cover_of_tiled [⟨rC, p0⟩] S1x1x1x4096x128.size (by rfl) y

set_option maxHeartbeats 1000000 in
/-- The body on whole staging memrefs: holding the positions, the cache's table and the new row, and the output buffer at
    anything, it runs to the continuation with the inputs as they were and the output buffer at `out0_2`. -/
theorem sound_kernel0 (c : Dev nD) (E : Set ℕ) (i : grid0.Coords)
    (arg4 : Memref sig .tc .vmem S1x1x1x4096x128 .f32) (harg4 : arg4.IsWhole) (arg5 : Memref sig .tc .vmem S1x1x1x1x128 .f32) (harg5 : arg5.IsWhole)
    (arg6 : Memref sig .tc .vmem S1x1x1x4096x128 .f32) (harg6 : arg6.IsWhole)
    (xt : TbBuf (F := F) c) (x0 : Vec F S1x1x1x4096x128 .f32) (x1 : Vec F S1x1x1x1x128 .f32) (K : PUnit → sProp 𝕄) :
    iprop(tbPt c xt ∗ owns (c : Thread nD τ) arg4 fullShare x0 ∗ owns (c : Thread nD τ) arg5 fullShare x1 ∗ (∃ d, owns (c : Thread nD τ) arg6 fullShare d)
        ∗ (iprop(tbPt c xt ∗ owns (c : Thread nD τ) arg4 fullShare x0 ∗ owns (c : Thread nD τ) arg5 fullShare x1
            ∗ owns (c : Thread nD τ) arg6 fullShare (out0_2 c i xt x0 x1)) -∗ K ⟨⟩))
      ⊢ wp frame (wpE (defs₀ (F := F)) Variants.none c none) E (cc0__scatter_kernel i tbM htbM arg4 harg4 arg5 harg5 arg6 harg6) K := by
  simp only [cc0__scatter_kernel_eq_skeleton]; unfold cc0__scatter_kernel_skel
  unfold owns
  iintro ⟨HT, ⟨%f0, %hf0, H0⟩, ⟨%f1, %hf1, H1⟩, ⟨%d2, %f2, -, H2⟩, Hk⟩
  subst hf0; subst hf1
  sl_exec
  sl_step
  sl_unfold_words
  iapply Hk
  isplitl [HT]; · iexact HT
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body each input's buffer at
    its block and the output's at `out0_2` of the blocks; carried from point to point, untouched: the scratch the kernel does
    not use, the generator register, and the positions' table whole at its contents. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => out0_2 c (grid0.coords t) (a0.1 0) (iblk0 a0 V c 0 t) (iblk0 a0 V c 1 t)
  Φ _ := iprop(Pipeline.ΦA spec0 c ∗ tbPt c (a0.1 0))
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) :
    (dat0 a0 V c).after 2 t = out0_2 c (grid0.coords t) (a0.1 0) (iblk0 a0 V c 0 t) (iblk0 a0 V c 1 t) := by dsimp only [dat0]; rfl
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (st0_0 a0 t) fullShare ((dat0 a0 V c).before 0 t d))
    ∗ (∃ d, owns (c : Thread nD τ) (st0_1 a0 t) fullShare ((dat0 a0 V c).before 1 t d))
    ∗ (∃ d, owns (c : Thread nD τ) (st0_2 a0 t) fullShare ((dat0 a0 V c).before 2 t d)))
/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (st0_0 a0 t) fullShare ((dat0 a0 V c).after 0 t)
    ∗ owns (c : Thread nD τ) (st0_1 a0 t) fullShare ((dat0 a0 V c).after 1 t)
    ∗ owns (c : Thread nD τ) (st0_2 a0 t) fullShare ((dat0 a0 V c).after 2 t))

/-- The body at any point: the inputs' buffers hold their blocks, the carried table is lent to the body and taken back. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2,
    show (dat0 a0 V c).Φ t.castSucc = iprop(Pipeline.ΦA spec0 c ∗ tbPt c (a0.1 0)) from rfl]
  iintro ⟨⟨HΦ, HT⟩, Ho, ⟨%d0, H0⟩, ⟨%d1, H1⟩, ⟨%d2, H2⟩⟩
  iapply (sound_kernel0 c Set.univ (grid0.coords t) _ _ _ _ _ _ (a0.1 0) (iblk0 a0 V c 0 t) (iblk0 a0 V c 1 t) _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

end Region0

/-! # Pallas call 1: one (layer, batch entry, head) table per grid point

The grid is (layer, batch entry, head) = 2 × 8 × 8. At a point the pipeline stages the cache's 4096 × 128 table and the new
token's 128-lane row for that layer, batch entry and head; the body reads the batch entry's row number off the prefetched
table of positions, and writes back the table with that one row replaced. -/

section Region1

variable (a1 : (pcfg1 (F := F)).Adm)
-- the buffer contents the region is entered with
variable (V : (c : Dev nD) → (b : Ref sig .tc) → Buf (Elt F) ((c : Thread nD τ).loc b))

/-- The staging memref each window is on at point `t`, and the body as the pipeline calls it there. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)
abbrev bodyAt1 (t : Fin (cfg1 a1).N) : Prog (TpuEff nD τ sig (Elt F) Λ₀ .tc) PUnit :=
  cc1__scatter_kernel (grid1.coords t) tbM htbM
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- An input window's staging buffer holds its block at every point, fetched there or not: the blocks tile the array and
    the body leaves the buffer as it found it. -/
theorem before1_0_of {c : Dev nD} (dat : Dat τ (Elt F) Unit ℕ (UR sig nD τ) ℕ (cfg1 a1) c) (hA : dat.A 0 = V c (Pipeline.arrRef spec1 0))
    (hafter : ∀ t, dat.after 0 t = iblk1 a1 V c 0 t) (t : Fin (cfg1 a1).N) (d) : dat.before 0 t d = iblk1 a1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a1) c) (hA : dat.A 1 = V c (Pipeline.arrRef spec1 1))
    (hafter : ∀ t, dat.after 1 t = iblk1 a1 V c 1 t) (t : Fin (cfg1 a1).N) (d) : dat.before 1 t d = iblk1 a1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row number the body reads at grid point `i`: the positions' word of the point's batch entry. -/
def posWord1 (c : Dev nD) (i : grid1.Coords) (xt : TbBuf (F := F) c) : Elt F .i32 :=
  tbM.view.readAt (Elt F) (Rect.unit (s := S8) (k1_off1 i) S1.size (k1_off1_inb i)).toLoadRect xt (Shape.Idx.first (numel1_S1.symm ▸ Nat.one_pos))

/-- What the body leaves in the output window's staging buffer: its one store, of the table with the row replaced. -/
def out1_2 (c : Dev nD) (i : grid1.Coords) (xt : TbBuf (F := F) c) (x0 : Vec F S1x1x1x4096x128 .f32) (x1 : Vec F S1x1x1x1x128 .f32) :
    Vec F S1x1x1x4096x128 .f32 :=
  View.canon [⟨rC, k1_pay1 (posWord1 c i xt) (View.ld x0 rC) (View.ld x1 rN)⟩]

/-- The one store covers the buffer. -/
theorem cover1_2 (p0 : Vec F S1x1x1x4096x128 .f32) (y : S1x1x1x4096x128.Idx) :
    ∃ pc ∈ ([⟨rC, p0⟩] : List (View.Piece (Elt F) S1x1x1x4096x128 .f32)), y ∈ pc.1.set :=
  View.cover_of_tiled [⟨rC, p0⟩] S1x1x1x4096x128.size (by rfl) y

set_option maxHeartbeats 1000000 in
/-- The body on whole staging memrefs: holding the positions, the cache's table and the new row, and the output buffer at
    anything, it runs to the continuation with the inputs as they were and the output buffer at `out1_2`. -/
theorem sound_kernel1 (c : Dev nD) (E : Set ℕ) (i : grid1.Coords)
    (arg4 : Memref sig .tc .vmem S1x1x1x4096x128 .f32) (harg4 : arg4.IsWhole) (arg5 : Memref sig .tc .vmem S1x1x1x1x128 .f32) (harg5 : arg5.IsWhole)
    (arg6 : Memref sig .tc .vmem S1x1x1x4096x128 .f32) (harg6 : arg6.IsWhole)
    (xt : TbBuf (F := F) c) (x0 : Vec F S1x1x1x4096x128 .f32) (x1 : Vec F S1x1x1x1x128 .f32) (K : PUnit → sProp 𝕄) :
    iprop(tbPt c xt ∗ owns (c : Thread nD τ) arg4 fullShare x0 ∗ owns (c : Thread nD τ) arg5 fullShare x1 ∗ (∃ d, owns (c : Thread nD τ) arg6 fullShare d)
        ∗ (iprop(tbPt c xt ∗ owns (c : Thread nD τ) arg4 fullShare x0 ∗ owns (c : Thread nD τ) arg5 fullShare x1
            ∗ owns (c : Thread nD τ) arg6 fullShare (out1_2 c i xt x0 x1)) -∗ K ⟨⟩))
      ⊢ wp frame (wpE (defs₀ (F := F)) Variants.none c none) E (cc1__scatter_kernel i tbM htbM arg4 harg4 arg5 harg5 arg6 harg6) K := by
  simp only [cc1__scatter_kernel_eq_skeleton]; unfold cc1__scatter_kernel_skel
  unfold owns
  iintro ⟨HT, ⟨%f0, %hf0, H0⟩, ⟨%f1, %hf1, H1⟩, ⟨%d2, %f2, -, H2⟩, Hk⟩
  subst hf0; subst hf1
  sl_exec
  sl_step
  sl_unfold_words
  iapply Hk
  isplitl [HT]; · iexact HT
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body each input's buffer at
    its block and the output's at `out1_2` of the blocks; carried from point to point, untouched: the scratch the kernel does
    not use, the generator register, and the positions' table whole at its contents. -/
def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => out1_2 c (grid1.coords t) (a1.1 0) (iblk1 a1 V c 0 t) (iblk1 a1 V c 1 t)
  Φ _ := iprop(Pipeline.ΦA spec1 c ∗ tbPt c (a1.1 0))
  q _ := fullShare
  owed _ := 0

theorem A_eq1 (c : Dev nD) (w : Fin (cfg1 a1).W) : (dat1 a1 V c).A w = V c (Pipeline.arrRef spec1 w) := by
  dsimp only [dat1]
theorem after1_0 (c : Dev nD) (t : Fin (cfg1 a1).N) : (dat1 a1 V c).after 0 t = iblk1 a1 V c 0 t := by dsimp only [dat1]; rfl
theorem after1_1 (c : Dev nD) (t : Fin (cfg1 a1).N) : (dat1 a1 V c).after 1 t = iblk1 a1 V c 1 t := by dsimp only [dat1]; rfl
theorem after1_2 (c : Dev nD) (t : Fin (cfg1 a1).N) :
    (dat1 a1 V c).after 2 t = out1_2 c (grid1.coords t) (a1.1 0) (iblk1 a1 V c 0 t) (iblk1 a1 V c 1 t) := by dsimp only [dat1]; rfl
theorem before1_0 (c : Dev nD) (t : Fin (cfg1 a1).N) (d) : (dat1 a1 V c).before 0 t d = iblk1 a1 V c 0 t :=
  before1_0_of a1 V (dat1 a1 V c) (A_eq1 a1 V c 0) (after1_0 a1 V c) t d
theorem before1_1 (c : Dev nD) (t : Fin (cfg1 a1).N) (d) : (dat1 a1 V c).before 1 t d = iblk1 a1 V c 1 t :=
  before1_1_of a1 V (dat1 a1 V c) (A_eq1 a1 V c 1) (after1_1 a1 V c) t d

/-- What the body is called with at point `t`, the windows one by one, -/
def bodyPre1 (c : Dev nD) (t : Fin (cfg1 a1).N) : sProp 𝕄 :=
  iprop((dat1 a1 V c).Φ t.castSucc ∗ (dat1 a1 V c).owesAt () t.castSucc
    ∗ (∃ d, owns (c : Thread nD τ) (st1_0 a1 t) fullShare ((dat1 a1 V c).before 0 t d))
    ∗ (∃ d, owns (c : Thread nD τ) (st1_1 a1 t) fullShare ((dat1 a1 V c).before 1 t d))
    ∗ (∃ d, owns (c : Thread nD τ) (st1_2 a1 t) fullShare ((dat1 a1 V c).before 2 t d)))
/-- and what it returns. -/
def bodyPost1 (c : Dev nD) (t : Fin (cfg1 a1).N) : sProp 𝕄 :=
  iprop((dat1 a1 V c).Φ t.succ ∗ (dat1 a1 V c).owesAt () t.succ
    ∗ owns (c : Thread nD τ) (st1_0 a1 t) fullShare ((dat1 a1 V c).after 0 t)
    ∗ owns (c : Thread nD τ) (st1_1 a1 t) fullShare ((dat1 a1 V c).after 1 t)
    ∗ owns (c : Thread nD τ) (st1_2 a1 t) fullShare ((dat1 a1 V c).after 2 t))

/-- The body at any point: the inputs' buffers hold their blocks, the carried table is lent to the body and taken back. -/
theorem sound_body1 (c : Dev nD) (t : Fin (cfg1 a1).N) :
    bodyPre1 a1 V c t ⊢ wp frame (wpE (defs₀ (F := F)) Variants.none c none) Set.univ (bodyAt1 a1 t) (fun _ => bodyPost1 a1 V c t) := by
  unfold bodyPre1 bodyPost1 bodyAt1
  simp only [before1_0, before1_1]
  rw [show (dat1 a1 V c).Φ t.succ = (dat1 a1 V c).Φ t.castSucc from rfl,
    show (dat1 a1 V c).owesAt () t.succ = (dat1 a1 V c).owesAt () t.castSucc from rfl,
    after1_0, after1_1, after1_2,
    show (dat1 a1 V c).Φ t.castSucc = iprop(Pipeline.ΦA spec1 c ∗ tbPt c (a1.1 0)) from rfl]
  iintro ⟨⟨HΦ, HT⟩, Ho, ⟨%d0, H0⟩, ⟨%d1, H1⟩, ⟨%d2, H2⟩⟩
  iapply (sound_kernel1 c Set.univ (grid1.coords t) _ _ _ _ _ _ (a1.1 0) (iblk1 a1 V c 0 t) (iblk1 a1 V c 1 t) _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The body obligation, at every point. -/
theorem body_obligation1 (c : Dev nD) : BodyObligation (dat1 (F := F) a1 V c) (defs₀ (F := F)) Variants.none () Set.univ := fun t => by
  rw [bigSep_W1, bigSep_W1]
  exact sound_body1 a1 V c t

end Region1

end Cert.Kernel.Rows

end
-- ==== Proof.KBitsRun.lean ====
/-
  The kernel program's run: the buffer contents at each boundary of @main — the host reshape of the positions, pallas call 0,
  pallas call 1, the host stacking — each pallas call as a segment between them, and the launch. Every weakly fair execution
  terminates, and at the end every unscoped buffer holds what this fold says.
-/
import proofs.«414916_j8864812499506_1_alg».proof.Proof.KBitsRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main -/

/-- Core `c`'s buffers at launch, -/
abbrev W0 : Dev nD → Valuation τ sig (Elt F) := fun c b => m (c, b)
/-- after the host reshape of the positions (pallas call 0's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The positions' table as both pallas calls find it (the program runs on one device). -/
def tbl0 : pre0.Contents (Elt F) := fun k => V1 m (0 : Dev nD) (pre0.ref k)
def tbl1 : pre1.Contents (Elt F) := fun k => V1 m (0 : Dev nD) (pre1.ref k)
/-- The table as admissible contents of each pipeline (no index map reads it: nothing to check). -/
abbrev a0 : (pcfg0 (F := F)).Adm := ⟨tbl0 m, trivial⟩
abbrev a1 : (pcfg1 (F := F)).Adm := ⟨tbl1 m, trivial⟩
abbrev adm : (p : Fin 2) → (pcfgs (F := F) p).Adm
  | ⟨0, _⟩ => a0 m
  | ⟨1, _⟩ => a1 m

/-- at pallas call 0's exit: its arrays at what the write-backs leave, every other buffer as entered, -/
def W2 (c : Dev nD) : Valuation τ sig (Elt F) :=
  Pipeline.withArrays spec0 c (W1 m c) fun w => (dat0 (a0 m) (V1 m) c).arrAt w (cfg0 (a0 m)).N
theorem W2_arr (c : Dev nD) (w : Fin (cfg0 (a0 m)).W) :
    W2 m c (Proc.devRef .tc (Pipeline.arrRef spec0 w)) = (dat0 (a0 m) (V1 m) c).arrAt w (cfg0 (a0 m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin (cfg0 (a0 m)).W) : (dat0 (a0 m) (V1 m) c).arrAt w (cfg0 (a0 m)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- at pallas call 1's exit, likewise, -/
def W3 (c : Dev nD) : Valuation τ sig (Elt F) :=
  Pipeline.withArrays spec1 c (W2 m c) fun w => (dat1 (a1 m) (V2 m) c).arrAt w (cfg1 (a1 m)).N
theorem W3_arr (c : Dev nD) (w : Fin (cfg1 (a1 m)).W) :
    W3 m c (Proc.devRef .tc (Pipeline.arrRef spec1 w)) = (dat1 (a1 m) (V2 m) c).arrAt w (cfg1 (a1 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin (cfg1 (a1 m)).W) : (dat1 (a1 m) (V2 m) c).arrAt w (cfg1 (a1 m)).N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- and after the host stacking: the end. -/
abbrev W4 : Dev nD → Valuation τ sig (Elt F) := fun c => StableHlo.after hostOps2 (W3 m c)

/-! ## The table of positions through the boundaries -/

/-- One table, held whole: the pipeline's record of its tables is that one points-to. -/
theorem prefHeld0_eq (c : Dev nD) (v : pre0.Contents (Elt F)) :
    (Pipeline.prefHeld (Ix := Unit) (Name := ℕ) (U := UR sig nD τ) (Lvl := ℕ) pre0 c (fun _ => fullShare) v : sProp 𝕄) = tbPt c (v 0) := by
  unfold Pipeline.prefHeld
  rw [show (Finset.univ : Finset (Fin 1)) = {(0 : Fin 1)} from rfl, bigSep_singleton]
  rfl
theorem prefHeld1_eq (c : Dev nD) (v : pre1.Contents (Elt F)) :
    (Pipeline.prefHeld (Ix := Unit) (Name := ℕ) (U := UR sig nD τ) (Lvl := ℕ) pre1 c (fun _ => fullShare) v : sProp 𝕄) = tbPt c (v 0) := by
  unfold Pipeline.prefHeld
  rw [show (Finset.univ : Finset (Fin 1)) = {(0 : Fin 1)} from rfl, bigSep_singleton]
  rfl
/-- On the one device, the table pallas call 0 enters with is `tbl0`; pallas call 0 does not write it, so pallas call 1 enters
    with the same. -/
theorem tblHeld0 (c : Dev nD) :
    (Pipeline.prefHeld (Ix := Unit) (Name := ℕ) (U := UR sig nD τ) (Lvl := ℕ) pre0 c (fun _ => fullShare) (fun k => V1 m c (pre0.ref k)) : sProp 𝕄)
      = tbPt c (tbl0 m 0) := by
  rw [prefHeld0_eq]
  obtain rfl : c = 0 := Subsingleton.elim _ _
  rfl
theorem tblHeld1 (c : Dev nD) :
    (Pipeline.prefHeld (Ix := Unit) (Name := ℕ) (U := UR sig nD τ) (Lvl := ℕ) pre1 c (fun _ => fullShare) (fun k => V2 m c (pre1.ref k)) : sProp 𝕄)
      = tbPt c (tbl1 m 0) := by
  rw [prefHeld1_eq]
  obtain rfl : c = 0 := Subsingleton.elim _ _
  show tbPt 0 (W2 m 0 (Proc.devRef .tc main_v0)) = _
  rw [W2_of_ne m 0 main_v0 (by decide)]
  rfl

/-! ## The proof data family and the thread state -/

/-- Each pipeline's proof data at its entry contents: a literal match, so that the pinned configuration at a numeral reduces
    to the printed one. -/
def pdats : (p : Fin 2) → (c : Dev nD) → Dat τ (Elt F) Unit ℕ (UR sig nD τ) ℕ (Pipeline.pin (pcfgs (F := F)) (adm m) p) c
  | ⟨0, _⟩ => fun c => dat0 (a0 m) (V1 m) c
  | ⟨1, _⟩ => fun c => dat1 (a1 m) (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m c) ∗ ∃ r, prngReg c r)

/-! ## The pallas calls as segments -/

set_option backward.isDefEq.respectTransparency.types false in
/-- Pallas call 0 over the thread state: entered with every unscoped buffer at `W1`, left with them at `W2`. Its arrays are
    split out of the unscoped buffers and put back at what the write-backs leave; the positions' table goes into the carried
    invariant whole and comes back whole; the generator register likewise; nothing is owed; the kernel has no semaphore of its own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (a0 m) (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ tbPt c (tbl0 m 0))
  Z c := Pipeline.unscopedRestP (Ix := Unit) (Name := ℕ) (U := UR sig nD τ) (Lvl := ℕ) pre0 spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0)
            ∗ Pipeline.prefHeld pre0 c (fun _ => fullShare) (fun k => V1 m c (pre0.ref k)) ∗ Pipeline.unscopedRestP pre0 spec0 c (V1 m c)) := by
      have h := Pipeline.arrays_of_unscopedBufs (p := 0) (pcfgs (F := F)) (adm m) (pdats m) (launch0 (F := F)).win (launch0 (F := F)).arr_whole c
        ((pdats m 0 c).share_full fun _ => rfl) (V1 m c) fun _ => rfl
      rw [Pipeline.unscopedBufs_held, Pipeline.unscopedRest_split (launch0 (F := F)).pre c (V1 m c)] at h
      exact h
    rw [tblHeld0] at hsplit
    iintro ⟨⟨Hub, Hp, HO⟩, -, -⟩
    ihave H := hsplit $$ Hub
    icases H with ⟨Ha, Ht, Hrest⟩
    imodintro
    isplitl [Ha]; · iexact Ha
    isplitl [Ht]
    · iapply (show (tbPt c (tbl0 m 0) : sProp 𝕄) ⊢ Pipeline.prefHeld pre0 c (fun _ => fullShare) (tbl0 m) from by rw [prefHeld0_eq])
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre0 c (fun _ => fullShare) (tbl0 m) ∗ Pipeline.scopedRest spec0 c)
      ⊢ iprop(Pipeline.ΦA spec0 c ∗ tbPt c (tbl0 m 0))
    rw [prefHeld0_eq]
    unfold Pipeline.ΦA
    iintro ⟨Hp, Ht, Hr⟩
    isplitr [Ht]
    · isplitl [Hr]; · iexact Hr
      iexact Hp
    iexact Ht
  hout c := by
    rw [Pipeline.ownSems0_none]
    show iprop(Pipeline.ΦA spec0 c ∗ tbPt c (tbl0 m 0))
      ⊢ iprop(((∃ r, prngReg c r) ∗ tbPt c (tbl0 m 0)) ∗ BI.emp ∗ Pipeline.scopedRest spec0 c)
    unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m 0 c).arrays ((pdats m 0 c).arrAt · (cfg0 (a0 m)).N)
          ∗ Pipeline.prefHeld pre0 c (fun _ => fullShare) (fun k => V1 m c (pre0.ref k)) ∗ Pipeline.unscopedRestP pre0 spec0 c (V1 m c))
        ⊢ (StableHlo.held (c : Thread nD τ) (Pipeline.ucRefs τ sig) (W2 m c) : sProp 𝕄) := by
      have h := Pipeline.unscopedBufs_of_arrays (p := 0) (pcfgs (F := F)) (adm m) (Ix := Unit) (Name := ℕ) (U := UR sig nD τ) (Lvl := ℕ)
        (launch0 (F := F)).win (launch0 (F := F)).arr_whole c (pdats m) ((pdats m 0 c).share_full fun _ => rfl)
        (V1 m c) (V2 m c) ((pdats m 0 c).arrAt · (cfg0 (a0 m)).N) (hF0 m c) (hrest0 m c)
      rw [Pipeline.unscopedBufs_held, Pipeline.unscopedRest_split (launch0 (F := F)).pre c (V1 m c)] at h
      exact h
    rw [tblHeld0] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W2`, left with them at `W3`. Its arrays are
    split out of the unscoped buffers and put back at what the write-backs leave; the positions' table goes into the carried
    invariant whole and comes back whole; the generator register likewise; nothing is owed; the kernel has no semaphore of its own. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (a1 m) (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop((∃ r, prngReg c r) ∗ tbPt c (tbl1 m 0))
  Z c := Pipeline.unscopedRestP (Ix := Unit) (Name := ℕ) (U := UR sig nD τ) (Lvl := ℕ) pre1 spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.prefHeld pre1 c (fun _ => fullShare) (fun k => V2 m c (pre1.ref k)) ∗ Pipeline.unscopedRestP pre1 spec1 c (V2 m c)) := by
      have h := Pipeline.arrays_of_unscopedBufs (p := 1) (pcfgs (F := F)) (adm m) (pdats m) (launch1 (F := F)).win (launch1 (F := F)).arr_whole c
        ((pdats m 1 c).share_full fun _ => rfl) (V2 m c) fun _ => rfl
      rw [Pipeline.unscopedBufs_held, Pipeline.unscopedRest_split (launch1 (F := F)).pre c (V2 m c)] at h
      exact h
    rw [tblHeld1] at hsplit
    iintro ⟨⟨Hub, Hp, HO⟩, -, -⟩
    ihave H := hsplit $$ Hub
    icases H with ⟨Ha, Ht, Hrest⟩
    imodintro
    isplitl [Ha]; · iexact Ha
    isplitl [Ht]
    · iapply (show (tbPt c (tbl1 m 0) : sProp 𝕄) ⊢ Pipeline.prefHeld pre1 c (fun _ => fullShare) (tbl1 m) from by rw [prefHeld1_eq])
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre1 c (fun _ => fullShare) (tbl1 m) ∗ Pipeline.scopedRest spec1 c)
      ⊢ iprop(Pipeline.ΦA spec1 c ∗ tbPt c (tbl1 m 0))
    rw [prefHeld1_eq]
    unfold Pipeline.ΦA
    iintro ⟨Hp, Ht, Hr⟩
    isplitr [Ht]
    · isplitl [Hr]; · iexact Hr
      iexact Hp
    iexact Ht
  hout c := by
    rw [Pipeline.ownSems0_none]
    show iprop(Pipeline.ΦA spec1 c ∗ tbPt c (tbl1 m 0))
      ⊢ iprop(((∃ r, prngReg c r) ∗ tbPt c (tbl1 m 0)) ∗ BI.emp ∗ Pipeline.scopedRest spec1 c)
    unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m 1 c).arrays ((pdats m 1 c).arrAt · (cfg1 (a1 m)).N)
          ∗ Pipeline.prefHeld pre1 c (fun _ => fullShare) (fun k => V2 m c (pre1.ref k)) ∗ Pipeline.unscopedRestP pre1 spec1 c (V2 m c))
        ⊢ (StableHlo.held (c : Thread nD τ) (Pipeline.ucRefs τ sig) (W3 m c) : sProp 𝕄) := by
      have h := Pipeline.unscopedBufs_of_arrays (p := 1) (pcfgs (F := F)) (adm m) (Ix := Unit) (Name := ℕ) (U := UR sig nD τ) (Lvl := ℕ)
        (launch1 (F := F)).win (launch1 (F := F)).arr_whole c (pdats m) ((pdats m 1 c).share_full fun _ => rfl)
        (V2 m c) (V3 m c) ((pdats m 1 c).arrAt · (cfg1 (a1 m)).N) (hF1 m c) (hrest1 m c)
      rw [Pipeline.unscopedBufs_held, Pipeline.unscopedRest_split (launch1 (F := F)).pre c (V2 m c)] at h
      exact h
    rw [tblHeld1] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting, and every
    final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched: no host operation writes one, and each pallas call only reads them -/

/-- The host reshape writes only the table: the caches and the new token's arrays reach pallas call 0 as launched. -/
theorem V1_arg (c : Dev nD) (b : Ref sig .tc) (hb : b ≠ main_v0) : V1 m c b = m ((c : Thread nD τ).loc b) := by
  show StableHlo.after hostOps0 (W0 m c) (Proc.devRef .tc b) = _
  refine StableHlo.after_of_forall_not_mem (b := Proc.devRef .tc b) _ _ (List.forall_iff_forall_mem.mp ?_)
  simp only [hostOps0, List.Forall, StableHlo.reshape_writes, Finset.mem_singleton]
  exact StableHlo.devRef_ne_of_ne hb

/-- The arguments are never written: each ends as launched. -/
theorem arg_kept (c : Dev nD) (b : Ref sig .tc) (hb : b = main_arg0 ∨ b = main_arg1 ∨ b = main_arg2 ∨ b = main_arg3 ∨ b = main_arg4) :
    W4 m c (Proc.devRef .tc b) = m ((c : Thread nD τ).loc b) := by
  have h4 : W4 m c (Proc.devRef .tc b) = W3 m c (Proc.devRef .tc b) := by
    refine StableHlo.after_of_forall_not_mem (b := Proc.devRef .tc b) _ _ (List.forall_iff_forall_mem.mp ?_)
    simp only [hostOps2, List.Forall, StableHlo.unary_writes, StableHlo.binary_writes, Finset.mem_singleton]
    rcases hb with rfl | rfl | rfl | rfl | rfl <;>
      exact ⟨StableHlo.devRef_ne_of_ne (by decide), StableHlo.devRef_ne_of_ne (by decide), StableHlo.devRef_ne_of_ne (by decide)⟩
  rw [h4]
  rcases hb with rfl | rfl | rfl | rfl | rfl
  · exact (W3_of_ne m c main_arg0 (by decide)).trans (((W2_arr m c 0).trans ((dat0 (a0 m) (V1 m) c).arrAt_in 0 rfl _)).trans (V1_arg m c main_arg0 (by decide)))
  · exact ((W3_arr m c 0).trans ((dat1 (a1 m) (V2 m) c).arrAt_in 0 rfl _)).trans ((W2_of_ne m c main_arg1 (by decide)).trans (V1_arg m c main_arg1 (by decide)))
  · exact (W3_of_ne m c main_arg2 (by decide)).trans (((W2_arr m c 1).trans ((dat0 (a0 m) (V1 m) c).arrAt_in 1 rfl _)).trans (V1_arg m c main_arg2 (by decide)))
  · exact ((W3_arr m c 1).trans ((dat1 (a1 m) (V2 m) c).arrAt_in 1 rfl _)).trans ((W2_of_ne m c main_arg3 (by decide)).trans (V1_arg m c main_arg3 (by decide)))
  · exact (W3_of_ne m c main_arg4 (by decide)).trans ((W2_of_ne m c main_arg4 (by decide)).trans (V1_arg m c main_arg4 (by decide)))

/-- An unscoped buffer is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (arg_kept m c main_arg0 (.inl rfl)),
     (h c _ (mem_uc main_arg1 (by decide))).trans (arg_kept m c main_arg1 (.inr (.inl rfl))),
     (h c _ (mem_uc main_arg2 (by decide))).trans (arg_kept m c main_arg2 (.inr (.inr (.inl rfl)))),
     (h c _ (mem_uc main_arg3 (by decide))).trans (arg_kept m c main_arg3 (.inr (.inr (.inr (.inl rfl))))),
     (h c _ (mem_uc main_arg4 (by decide))).trans (arg_kept m c main_arg4 (.inr (.inr (.inr (.inr rfl)))))⟩)
    (run m ρ)

end Cert.Kernel.Rows

end
-- ==== Proof.KIdealRegions.lean ====
/-
  The two pallas calls of the kernel program, one at a time, at any buffer contents `V` they may be entered with and any
  contents of the prefetched table of positions: what the body leaves in its output buffer, the body's triple, the pipeline's
  proof data and the body obligation.
-/
import proofs.«414916_j8864812499506_1_alg».proof.Proof.Gen.KernelIdeal.Launch
import proofs.«414916_j8864812499506_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched table of positions, as the body is handed it: the whole scalar-memory buffer. -/
abbrev tbM : Memref sig .tc .smem S8 .i32 := Memref.whole main_v0
abbrev htbM : tbM.IsWhole := Memref.isWhole_whole _
abbrev TbBuf (c : Dev nD) : Type := Buf (Elt F) (tbM.view.loc (c : Thread nD τ))
/-- The table held whole at contents `f`. -/
abbrev tbPt (c : Dev nD) (f : TbBuf (F := F) c) : sProp 𝕄 := tbM.view.loc (c : Thread nD τ) ↦{fullShare} f

/-- The body's accesses: the whole staged table, the whole staged row. -/
abbrev rC : Rect S1x1x1x4096x128 := Rect.unit (s := S1x1x1x4096x128) ![0, 0, 0, 0, 0] S1x1x1x4096x128.size inb_S1x1x1x4096x128_S1x1x1x4096x128_0_0_0_0_0
abbrev rN : Rect S1x1x1x1x128 := Rect.unit (s := S1x1x1x1x128) ![0, 0, 0, 0, 0] S1x1x1x1x128.size inb_S1x1x1x1x128_S1x1x1x1x128_0_0_0_0_0

/-! # Pallas call 0: one (layer, batch entry, head) table per grid point

The grid is (layer, batch entry, head) = 2 × 8 × 8. At a point the pipeline stages the cache's 4096 × 128 table and the new
token's 128-lane row for that layer, batch entry and head; the body reads the batch entry's row number off the prefetched
table of positions, and writes back the table with that one row replaced. -/

section Region0

variable (a0 : (pcfg0 (F := F)).Adm)
-- the buffer contents the region is entered with
variable (V : (c : Dev nD) → (b : Ref sig .tc) → Buf (Elt F) ((c : Thread nD τ).loc b))

/-- The staging memref each window is on at point `t`, and the body as the pipeline calls it there. -/
abbrev st0_0 (t : Fin (cfg0 a0).N) := ((cfg0 a0).win 0).stage ((cfg0 a0).slots t 0)
abbrev st0_1 (t : Fin (cfg0 a0).N) := ((cfg0 a0).win 1).stage ((cfg0 a0).slots t 1)
abbrev st0_2 (t : Fin (cfg0 a0).N) := ((cfg0 a0).win 2).stage ((cfg0 a0).slots t 2)
abbrev bodyAt0 (t : Fin (cfg0 a0).N) : Prog (TpuEff nD τ sig (Elt F) Λ₀ .tc) PUnit :=
  cc0__scatter_kernel (grid0.coords t) tbM htbM
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))

/-- Window `w`'s block at point `t`, read off its array as the region finds it. -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- An input window's staging buffer holds its block at every point, fetched there or not: the blocks tile the array and
    the body leaves the buffer as it found it. -/
theorem before0_0_of {c : Dev nD} (dat : Dat τ (Elt F) Unit ℕ (UR sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The row number the body reads at grid point `i`: the positions' word of the point's batch entry. -/
def posWord0 (c : Dev nD) (i : grid0.Coords) (xt : TbBuf (F := F) c) : Elt F .i32 :=
  tbM.view.readAt (Elt F) (Rect.unit (s := S8) (k0_off1 i) S1.size (k0_off1_inb i)).toLoadRect xt (Shape.Idx.first (numel1_S1.symm ▸ Nat.one_pos))

/-- What the body leaves in the output window's staging buffer: its one store, of the table with the row replaced. -/
def out0_2 (c : Dev nD) (i : grid0.Coords) (xt : TbBuf (F := F) c) (x0 : Vec F S1x1x1x4096x128 .f32) (x1 : Vec F S1x1x1x1x128 .f32) :
    Vec F S1x1x1x4096x128 .f32 :=
  View.canon [⟨rC, k0_pay1 (posWord0 c i xt) (View.ld x0 rC) (View.ld x1 rN)⟩]

/-- The one store covers the buffer. -/
theorem cover0_2 (p0 : Vec F S1x1x1x4096x128 .f32) (y : S1x1x1x4096x128.Idx) :
    ∃ pc ∈ ([⟨rC, p0⟩] : List (View.Piece (Elt F) S1x1x1x4096x128 .f32)), y ∈ pc.1.set :=
  View.cover_of_tiled [⟨rC, p0⟩] S1x1x1x4096x128.size (by rfl) y

set_option maxHeartbeats 1000000 in
/-- The body on whole staging memrefs: holding the positions, the cache's table and the new row, and the output buffer at
    anything, it runs to the continuation with the inputs as they were and the output buffer at `out0_2`. -/
theorem sound_kernel0 (c : Dev nD) (E : Set ℕ) (i : grid0.Coords)
    (arg4 : Memref sig .tc .vmem S1x1x1x4096x128 .f32) (harg4 : arg4.IsWhole) (arg5 : Memref sig .tc .vmem S1x1x1x1x128 .f32) (harg5 : arg5.IsWhole)
    (arg6 : Memref sig .tc .vmem S1x1x1x4096x128 .f32) (harg6 : arg6.IsWhole)
    (xt : TbBuf (F := F) c) (x0 : Vec F S1x1x1x4096x128 .f32) (x1 : Vec F S1x1x1x1x128 .f32) (K : PUnit → sProp 𝕄) :
    iprop(tbPt c xt ∗ owns (c : Thread nD τ) arg4 fullShare x0 ∗ owns (c : Thread nD τ) arg5 fullShare x1 ∗ (∃ d, owns (c : Thread nD τ) arg6 fullShare d)
        ∗ (iprop(tbPt c xt ∗ owns (c : Thread nD τ) arg4 fullShare x0 ∗ owns (c : Thread nD τ) arg5 fullShare x1
            ∗ owns (c : Thread nD τ) arg6 fullShare (out0_2 c i xt x0 x1)) -∗ K ⟨⟩))
      ⊢ wp frame (wpE (defs₀ (F := F)) Variants.none c none) E (cc0__scatter_kernel i tbM htbM arg4 harg4 arg5 harg5 arg6 harg6) K := by
  simp only [cc0__scatter_kernel_eq_skeleton]; unfold cc0__scatter_kernel_skel
  unfold owns
  iintro ⟨HT, ⟨%f0, %hf0, H0⟩, ⟨%f1, %hf1, H1⟩, ⟨%d2, %f2, -, H2⟩, Hk⟩
  subst hf0; subst hf1
  sl_exec
  sl_step
  sl_unfold_words
  iapply Hk
  isplitl [HT]; · iexact HT
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body each input's buffer at
    its block and the output's at `out0_2` of the blocks; carried from point to point, untouched: the scratch the kernel does
    not use, the generator register, and the positions' table whole at its contents. -/
def dat0 (c : Dev nD) : Dat τ (Elt F) Unit ℕ (UR sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => out0_2 c (grid0.coords t) (a0.1 0) (iblk0 a0 V c 0 t) (iblk0 a0 V c 1 t)
  Φ _ := iprop(Pipeline.ΦA spec0 c ∗ tbPt c (a0.1 0))
  q _ := fullShare
  owed _ := 0

theorem A_eq0 (c : Dev nD) (w : Fin (cfg0 a0).W) : (dat0 a0 V c).A w = V c (Pipeline.arrRef spec0 w) := by
  dsimp only [dat0]
theorem after0_0 (c : Dev nD) (t : Fin (cfg0 a0).N) : (dat0 a0 V c).after 0 t = iblk0 a0 V c 0 t := by dsimp only [dat0]; rfl
theorem after0_1 (c : Dev nD) (t : Fin (cfg0 a0).N) : (dat0 a0 V c).after 1 t = iblk0 a0 V c 1 t := by dsimp only [dat0]; rfl
theorem after0_2 (c : Dev nD) (t : Fin (cfg0 a0).N) :
    (dat0 a0 V c).after 2 t = out0_2 c (grid0.coords t) (a0.1 0) (iblk0 a0 V c 0 t) (iblk0 a0 V c 1 t) := by dsimp only [dat0]; rfl
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (st0_0 a0 t) fullShare ((dat0 a0 V c).before 0 t d))
    ∗ (∃ d, owns (c : Thread nD τ) (st0_1 a0 t) fullShare ((dat0 a0 V c).before 1 t d))
    ∗ (∃ d, owns (c : Thread nD τ) (st0_2 a0 t) fullShare ((dat0 a0 V c).before 2 t d)))
/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (st0_0 a0 t) fullShare ((dat0 a0 V c).after 0 t)
    ∗ owns (c : Thread nD τ) (st0_1 a0 t) fullShare ((dat0 a0 V c).after 1 t)
    ∗ owns (c : Thread nD τ) (st0_2 a0 t) fullShare ((dat0 a0 V c).after 2 t))

/-- The body at any point: the inputs' buffers hold their blocks, the carried table is lent to the body and taken back. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1]
  rw [show (dat0 a0 V c).Φ t.succ = (dat0 a0 V c).Φ t.castSucc from rfl,
    show (dat0 a0 V c).owesAt () t.succ = (dat0 a0 V c).owesAt () t.castSucc from rfl,
    after0_0, after0_1, after0_2,
    show (dat0 a0 V c).Φ t.castSucc = iprop(Pipeline.ΦA spec0 c ∗ tbPt c (a0.1 0)) from rfl]
  iintro ⟨⟨HΦ, HT⟩, Ho, ⟨%d0, H0⟩, ⟨%d1, H1⟩, ⟨%d2, H2⟩⟩
  iapply (sound_kernel0 c Set.univ (grid0.coords t) _ _ _ _ _ _ (a0.1 0) (iblk0 a0 V c 0 t) (iblk0 a0 V c 1 t) _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

end Region0

/-! # Pallas call 1: one (layer, batch entry, head) table per grid point

The grid is (layer, batch entry, head) = 2 × 8 × 8. At a point the pipeline stages the cache's 4096 × 128 table and the new
token's 128-lane row for that layer, batch entry and head; the body reads the batch entry's row number off the prefetched
table of positions, and writes back the table with that one row replaced. -/

section Region1

variable (a1 : (pcfg1 (F := F)).Adm)
-- the buffer contents the region is entered with
variable (V : (c : Dev nD) → (b : Ref sig .tc) → Buf (Elt F) ((c : Thread nD τ).loc b))

/-- The staging memref each window is on at point `t`, and the body as the pipeline calls it there. -/
abbrev st1_0 (t : Fin (cfg1 a1).N) := ((cfg1 a1).win 0).stage ((cfg1 a1).slots t 0)
abbrev st1_1 (t : Fin (cfg1 a1).N) := ((cfg1 a1).win 1).stage ((cfg1 a1).slots t 1)
abbrev st1_2 (t : Fin (cfg1 a1).N) := ((cfg1 a1).win 2).stage ((cfg1 a1).slots t 2)
abbrev bodyAt1 (t : Fin (cfg1 a1).N) : Prog (TpuEff nD τ sig (Elt F) Λ₀ .tc) PUnit :=
  cc1__scatter_kernel (grid1.coords t) tbM htbM
    (spec1_0.stage ((cfg1 a1).slots t 0)) (hstage1_0 (((cfg1 a1).slots t 0).cast nbuf1_0))
    (spec1_1.stage ((cfg1 a1).slots t 1)) (hstage1_1 (((cfg1 a1).slots t 1).cast nbuf1_1))
    (spec1_2.stage ((cfg1 a1).slots t 2)) (hstage1_2 (((cfg1 a1).slots t 2).cast nbuf1_2))

/-- Window `w`'s block at point `t`, read off its array as the region finds it. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- An input window's staging buffer holds its block at every point, fetched there or not: the blocks tile the array and
    the body leaves the buffer as it found it. -/
theorem before1_0_of {c : Dev nD} (dat : Dat τ (Elt F) Unit ℕ (UR sig nD τ) ℕ (cfg1 a1) c) (hA : dat.A 0 = V c (Pipeline.arrRef spec1 0))
    (hafter : ∀ t, dat.after 0 t = iblk1 a1 V c 0 t) (t : Fin (cfg1 a1).N) (d) : dat.before 0 t d = iblk1 a1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a1) c) (hA : dat.A 1 = V c (Pipeline.arrRef spec1 1))
    (hafter : ∀ t, dat.after 1 t = iblk1 a1 V c 1 t) (t : Fin (cfg1 a1).N) (d) : dat.before 1 t d = iblk1 a1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row number the body reads at grid point `i`: the positions' word of the point's batch entry. -/
def posWord1 (c : Dev nD) (i : grid1.Coords) (xt : TbBuf (F := F) c) : Elt F .i32 :=
  tbM.view.readAt (Elt F) (Rect.unit (s := S8) (k1_off1 i) S1.size (k1_off1_inb i)).toLoadRect xt (Shape.Idx.first (numel1_S1.symm ▸ Nat.one_pos))

/-- What the body leaves in the output window's staging buffer: its one store, of the table with the row replaced. -/
def out1_2 (c : Dev nD) (i : grid1.Coords) (xt : TbBuf (F := F) c) (x0 : Vec F S1x1x1x4096x128 .f32) (x1 : Vec F S1x1x1x1x128 .f32) :
    Vec F S1x1x1x4096x128 .f32 :=
  View.canon [⟨rC, k1_pay1 (posWord1 c i xt) (View.ld x0 rC) (View.ld x1 rN)⟩]

/-- The one store covers the buffer. -/
theorem cover1_2 (p0 : Vec F S1x1x1x4096x128 .f32) (y : S1x1x1x4096x128.Idx) :
    ∃ pc ∈ ([⟨rC, p0⟩] : List (View.Piece (Elt F) S1x1x1x4096x128 .f32)), y ∈ pc.1.set :=
  View.cover_of_tiled [⟨rC, p0⟩] S1x1x1x4096x128.size (by rfl) y

set_option maxHeartbeats 1000000 in
/-- The body on whole staging memrefs: holding the positions, the cache's table and the new row, and the output buffer at
    anything, it runs to the continuation with the inputs as they were and the output buffer at `out1_2`. -/
theorem sound_kernel1 (c : Dev nD) (E : Set ℕ) (i : grid1.Coords)
    (arg4 : Memref sig .tc .vmem S1x1x1x4096x128 .f32) (harg4 : arg4.IsWhole) (arg5 : Memref sig .tc .vmem S1x1x1x1x128 .f32) (harg5 : arg5.IsWhole)
    (arg6 : Memref sig .tc .vmem S1x1x1x4096x128 .f32) (harg6 : arg6.IsWhole)
    (xt : TbBuf (F := F) c) (x0 : Vec F S1x1x1x4096x128 .f32) (x1 : Vec F S1x1x1x1x128 .f32) (K : PUnit → sProp 𝕄) :
    iprop(tbPt c xt ∗ owns (c : Thread nD τ) arg4 fullShare x0 ∗ owns (c : Thread nD τ) arg5 fullShare x1 ∗ (∃ d, owns (c : Thread nD τ) arg6 fullShare d)
        ∗ (iprop(tbPt c xt ∗ owns (c : Thread nD τ) arg4 fullShare x0 ∗ owns (c : Thread nD τ) arg5 fullShare x1
            ∗ owns (c : Thread nD τ) arg6 fullShare (out1_2 c i xt x0 x1)) -∗ K ⟨⟩))
      ⊢ wp frame (wpE (defs₀ (F := F)) Variants.none c none) E (cc1__scatter_kernel i tbM htbM arg4 harg4 arg5 harg5 arg6 harg6) K := by
  simp only [cc1__scatter_kernel_eq_skeleton]; unfold cc1__scatter_kernel_skel
  unfold owns
  iintro ⟨HT, ⟨%f0, %hf0, H0⟩, ⟨%f1, %hf1, H1⟩, ⟨%d2, %f2, -, H2⟩, Hk⟩
  subst hf0; subst hf1
  sl_exec
  sl_step
  sl_unfold_words
  iapply Hk
  isplitl [HT]; · iexact HT
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline on core `c`: the arrays as the region finds them; after the body each input's buffer at
    its block and the output's at `out1_2` of the blocks; carried from point to point, untouched: the scratch the kernel does
    not use, the generator register, and the positions' table whole at its contents. -/
def dat1 (c : Dev nD) : Dat τ (Elt F) Unit ℕ (UR sig nD τ) ℕ (cfg1 a1) c where
  A w := V c (Pipeline.arrRef spec1 w)
  after w t := match w with
    | ⟨0, _⟩ => iblk1 a1 V c 0 t
    | ⟨1, _⟩ => iblk1 a1 V c 1 t
    | ⟨2, _⟩ => out1_2 c (grid1.coords t) (a1.1 0) (iblk1 a1 V c 0 t) (iblk1 a1 V c 1 t)
  Φ _ := iprop(Pipeline.ΦA spec1 c ∗ tbPt c (a1.1 0))
  q _ := fullShare
  owed _ := 0

theorem A_eq1 (c : Dev nD) (w : Fin (cfg1 a1).W) : (dat1 a1 V c).A w = V c (Pipeline.arrRef spec1 w) := by
  dsimp only [dat1]
theorem after1_0 (c : Dev nD) (t : Fin (cfg1 a1).N) : (dat1 a1 V c).after 0 t = iblk1 a1 V c 0 t := by dsimp only [dat1]; rfl
theorem after1_1 (c : Dev nD) (t : Fin (cfg1 a1).N) : (dat1 a1 V c).after 1 t = iblk1 a1 V c 1 t := by dsimp only [dat1]; rfl
theorem after1_2 (c : Dev nD) (t : Fin (cfg1 a1).N) :
    (dat1 a1 V c).after 2 t = out1_2 c (grid1.coords t) (a1.1 0) (iblk1 a1 V c 0 t) (iblk1 a1 V c 1 t) := by dsimp only [dat1]; rfl
theorem before1_0 (c : Dev nD) (t : Fin (cfg1 a1).N) (d) : (dat1 a1 V c).before 0 t d = iblk1 a1 V c 0 t :=
  before1_0_of a1 V (dat1 a1 V c) (A_eq1 a1 V c 0) (after1_0 a1 V c) t d
theorem before1_1 (c : Dev nD) (t : Fin (cfg1 a1).N) (d) : (dat1 a1 V c).before 1 t d = iblk1 a1 V c 1 t :=
  before1_1_of a1 V (dat1 a1 V c) (A_eq1 a1 V c 1) (after1_1 a1 V c) t d

/-- What the body is called with at point `t`, the windows one by one, -/
def bodyPre1 (c : Dev nD) (t : Fin (cfg1 a1).N) : sProp 𝕄 :=
  iprop((dat1 a1 V c).Φ t.castSucc ∗ (dat1 a1 V c).owesAt () t.castSucc
    ∗ (∃ d, owns (c : Thread nD τ) (st1_0 a1 t) fullShare ((dat1 a1 V c).before 0 t d))
    ∗ (∃ d, owns (c : Thread nD τ) (st1_1 a1 t) fullShare ((dat1 a1 V c).before 1 t d))
    ∗ (∃ d, owns (c : Thread nD τ) (st1_2 a1 t) fullShare ((dat1 a1 V c).before 2 t d)))
/-- and what it returns. -/
def bodyPost1 (c : Dev nD) (t : Fin (cfg1 a1).N) : sProp 𝕄 :=
  iprop((dat1 a1 V c).Φ t.succ ∗ (dat1 a1 V c).owesAt () t.succ
    ∗ owns (c : Thread nD τ) (st1_0 a1 t) fullShare ((dat1 a1 V c).after 0 t)
    ∗ owns (c : Thread nD τ) (st1_1 a1 t) fullShare ((dat1 a1 V c).after 1 t)
    ∗ owns (c : Thread nD τ) (st1_2 a1 t) fullShare ((dat1 a1 V c).after 2 t))

/-- The body at any point: the inputs' buffers hold their blocks, the carried table is lent to the body and taken back. -/
theorem sound_body1 (c : Dev nD) (t : Fin (cfg1 a1).N) :
    bodyPre1 a1 V c t ⊢ wp frame (wpE (defs₀ (F := F)) Variants.none c none) Set.univ (bodyAt1 a1 t) (fun _ => bodyPost1 a1 V c t) := by
  unfold bodyPre1 bodyPost1 bodyAt1
  simp only [before1_0, before1_1]
  rw [show (dat1 a1 V c).Φ t.succ = (dat1 a1 V c).Φ t.castSucc from rfl,
    show (dat1 a1 V c).owesAt () t.succ = (dat1 a1 V c).owesAt () t.castSucc from rfl,
    after1_0, after1_1, after1_2,
    show (dat1 a1 V c).Φ t.castSucc = iprop(Pipeline.ΦA spec1 c ∗ tbPt c (a1.1 0)) from rfl]
  iintro ⟨⟨HΦ, HT⟩, Ho, ⟨%d0, H0⟩, ⟨%d1, H1⟩, ⟨%d2, H2⟩⟩
  iapply (sound_kernel1 c Set.univ (grid1.coords t) _ _ _ _ _ _ (a1.1 0) (iblk1 a1 V c 0 t) (iblk1 a1 V c 1 t) _)
  isplitl [HT]; · iexact HT
  isplitl [H0]; · iexact H0
  isplitl [H1]; · iexact H1
  isplitl [H2]; · iexists _; iexact H2
  iintro ⟨HT, H0, H1, H2⟩
  isplitl [HΦ HT]
  · isplitl [HΦ]; · iexact HΦ
    iexact HT
  isplitl [Ho]; · iexact Ho
  isplitl [H0]; · iexact H0
  isplitl [H1]; · iexact H1
  iexact H2

/-- The body obligation, at every point. -/
theorem body_obligation1 (c : Dev nD) : BodyObligation (dat1 (F := F) a1 V c) (defs₀ (F := F)) Variants.none () Set.univ := fun t => by
  rw [bigSep_W1, bigSep_W1]
  exact sound_body1 a1 V c t

end Region1

end Cert.KernelIdeal.Rows

end
-- ==== Proof.KIdealRun.lean ====
/-
  The kernel program's run: the buffer contents at each boundary of @main — the host reshape of the positions, pallas call 0,
  pallas call 1, the host stacking — each pallas call as a segment between them, and the launch. Every weakly fair execution
  terminates, and at the end every unscoped buffer holds what this fold says.
-/
import proofs.«414916_j8864812499506_1_alg».proof.Proof.KIdealRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main -/

/-- Core `c`'s buffers at launch, -/
abbrev W0 : Dev nD → Valuation τ sig (Elt F) := fun c b => m (c, b)
/-- after the host reshape of the positions (pallas call 0's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The positions' table as both pallas calls find it (the program runs on one device). -/
def tbl0 : pre0.Contents (Elt F) := fun k => V1 m (0 : Dev nD) (pre0.ref k)
def tbl1 : pre1.Contents (Elt F) := fun k => V1 m (0 : Dev nD) (pre1.ref k)
/-- The table as admissible contents of each pipeline (no index map reads it: nothing to check). -/
abbrev a0 : (pcfg0 (F := F)).Adm := ⟨tbl0 m, trivial⟩
abbrev a1 : (pcfg1 (F := F)).Adm := ⟨tbl1 m, trivial⟩
abbrev adm : (p : Fin 2) → (pcfgs (F := F) p).Adm
  | ⟨0, _⟩ => a0 m
  | ⟨1, _⟩ => a1 m

/-- at pallas call 0's exit: its arrays at what the write-backs leave, every other buffer as entered, -/
def W2 (c : Dev nD) : Valuation τ sig (Elt F) :=
  Pipeline.withArrays spec0 c (W1 m c) fun w => (dat0 (a0 m) (V1 m) c).arrAt w (cfg0 (a0 m)).N
theorem W2_arr (c : Dev nD) (w : Fin (cfg0 (a0 m)).W) :
    W2 m c (Proc.devRef .tc (Pipeline.arrRef spec0 w)) = (dat0 (a0 m) (V1 m) c).arrAt w (cfg0 (a0 m)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin (cfg0 (a0 m)).W) : (dat0 (a0 m) (V1 m) c).arrAt w (cfg0 (a0 m)).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- at pallas call 1's exit, likewise, -/
def W3 (c : Dev nD) : Valuation τ sig (Elt F) :=
  Pipeline.withArrays spec1 c (W2 m c) fun w => (dat1 (a1 m) (V2 m) c).arrAt w (cfg1 (a1 m)).N
theorem W3_arr (c : Dev nD) (w : Fin (cfg1 (a1 m)).W) :
    W3 m c (Proc.devRef .tc (Pipeline.arrRef spec1 w)) = (dat1 (a1 m) (V2 m) c).arrAt w (cfg1 (a1 m)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin (cfg1 (a1 m)).W) : (dat1 (a1 m) (V2 m) c).arrAt w (cfg1 (a1 m)).N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- and after the host stacking: the end. -/
abbrev W4 : Dev nD → Valuation τ sig (Elt F) := fun c => StableHlo.after hostOps2 (W3 m c)

/-! ## The table of positions through the boundaries -/

/-- One table, held whole: the pipeline's record of its tables is that one points-to. -/
theorem prefHeld0_eq (c : Dev nD) (v : pre0.Contents (Elt F)) :
    (Pipeline.prefHeld (Ix := Unit) (Name := ℕ) (U := UR sig nD τ) (Lvl := ℕ) pre0 c (fun _ => fullShare) v : sProp 𝕄) = tbPt c (v 0) := by
  unfold Pipeline.prefHeld
  rw [show (Finset.univ : Finset (Fin 1)) = {(0 : Fin 1)} from rfl, bigSep_singleton]
  rfl
theorem prefHeld1_eq (c : Dev nD) (v : pre1.Contents (Elt F)) :
    (Pipeline.prefHeld (Ix := Unit) (Name := ℕ) (U := UR sig nD τ) (Lvl := ℕ) pre1 c (fun _ => fullShare) v : sProp 𝕄) = tbPt c (v 0) := by
  unfold Pipeline.prefHeld
  rw [show (Finset.univ : Finset (Fin 1)) = {(0 : Fin 1)} from rfl, bigSep_singleton]
  rfl
/-- On the one device, the table pallas call 0 enters with is `tbl0`; pallas call 0 does not write it, so pallas call 1 enters
    with the same. -/
theorem tblHeld0 (c : Dev nD) :
    (Pipeline.prefHeld (Ix := Unit) (Name := ℕ) (U := UR sig nD τ) (Lvl := ℕ) pre0 c (fun _ => fullShare) (fun k => V1 m c (pre0.ref k)) : sProp 𝕄)
      = tbPt c (tbl0 m 0) := by
  rw [prefHeld0_eq]
  obtain rfl : c = 0 := Subsingleton.elim _ _
  rfl
theorem tblHeld1 (c : Dev nD) :
    (Pipeline.prefHeld (Ix := Unit) (Name := ℕ) (U := UR sig nD τ) (Lvl := ℕ) pre1 c (fun _ => fullShare) (fun k => V2 m c (pre1.ref k)) : sProp 𝕄)
      = tbPt c (tbl1 m 0) := by
  rw [prefHeld1_eq]
  obtain rfl : c = 0 := Subsingleton.elim _ _
  show tbPt 0 (W2 m 0 (Proc.devRef .tc main_v0)) = _
  rw [W2_of_ne m 0 main_v0 (by decide)]
  rfl

/-! ## The proof data family and the thread state -/

/-- Each pipeline's proof data at its entry contents: a literal match, so that the pinned configuration at a numeral reduces
    to the printed one. -/
def pdats : (p : Fin 2) → (c : Dev nD) → Dat τ (Elt F) Unit ℕ (UR sig nD τ) ℕ (Pipeline.pin (pcfgs (F := F)) (adm m) p) c
  | ⟨0, _⟩ => fun c => dat0 (a0 m) (V1 m) c
  | ⟨1, _⟩ => fun c => dat1 (a1 m) (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m c) ∗ ∃ r, prngReg c r)

/-! ## The pallas calls as segments -/

set_option backward.isDefEq.respectTransparency.types false in
/-- Pallas call 0 over the thread state: entered with every unscoped buffer at `W1`, left with them at `W2`. Its arrays are
    split out of the unscoped buffers and put back at what the write-backs leave; the positions' table goes into the carried
    invariant whole and comes back whole; the generator register likewise; nothing is owed; the kernel has no semaphore of its own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (a0 m) (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ tbPt c (tbl0 m 0))
  Z c := Pipeline.unscopedRestP (Ix := Unit) (Name := ℕ) (U := UR sig nD τ) (Lvl := ℕ) pre0 spec0 c (V1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0)
            ∗ Pipeline.prefHeld pre0 c (fun _ => fullShare) (fun k => V1 m c (pre0.ref k)) ∗ Pipeline.unscopedRestP pre0 spec0 c (V1 m c)) := by
      have h := Pipeline.arrays_of_unscopedBufs (p := 0) (pcfgs (F := F)) (adm m) (pdats m) (launch0 (F := F)).win (launch0 (F := F)).arr_whole c
        ((pdats m 0 c).share_full fun _ => rfl) (V1 m c) fun _ => rfl
      rw [Pipeline.unscopedBufs_held, Pipeline.unscopedRest_split (launch0 (F := F)).pre c (V1 m c)] at h
      exact h
    rw [tblHeld0] at hsplit
    iintro ⟨⟨Hub, Hp, HO⟩, -, -⟩
    ihave H := hsplit $$ Hub
    icases H with ⟨Ha, Ht, Hrest⟩
    imodintro
    isplitl [Ha]; · iexact Ha
    isplitl [Ht]
    · iapply (show (tbPt c (tbl0 m 0) : sProp 𝕄) ⊢ Pipeline.prefHeld pre0 c (fun _ => fullShare) (tbl0 m) from by rw [prefHeld0_eq])
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre0 c (fun _ => fullShare) (tbl0 m) ∗ Pipeline.scopedRest spec0 c)
      ⊢ iprop(Pipeline.ΦA spec0 c ∗ tbPt c (tbl0 m 0))
    rw [prefHeld0_eq]
    unfold Pipeline.ΦA
    iintro ⟨Hp, Ht, Hr⟩
    isplitr [Ht]
    · isplitl [Hr]; · iexact Hr
      iexact Hp
    iexact Ht
  hout c := by
    rw [Pipeline.ownSems0_none]
    show iprop(Pipeline.ΦA spec0 c ∗ tbPt c (tbl0 m 0))
      ⊢ iprop(((∃ r, prngReg c r) ∗ tbPt c (tbl0 m 0)) ∗ BI.emp ∗ Pipeline.scopedRest spec0 c)
    unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m 0 c).arrays ((pdats m 0 c).arrAt · (cfg0 (a0 m)).N)
          ∗ Pipeline.prefHeld pre0 c (fun _ => fullShare) (fun k => V1 m c (pre0.ref k)) ∗ Pipeline.unscopedRestP pre0 spec0 c (V1 m c))
        ⊢ (StableHlo.held (c : Thread nD τ) (Pipeline.ucRefs τ sig) (W2 m c) : sProp 𝕄) := by
      have h := Pipeline.unscopedBufs_of_arrays (p := 0) (pcfgs (F := F)) (adm m) (Ix := Unit) (Name := ℕ) (U := UR sig nD τ) (Lvl := ℕ)
        (launch0 (F := F)).win (launch0 (F := F)).arr_whole c (pdats m) ((pdats m 0 c).share_full fun _ => rfl)
        (V1 m c) (V2 m c) ((pdats m 0 c).arrAt · (cfg0 (a0 m)).N) (hF0 m c) (hrest0 m c)
      rw [Pipeline.unscopedBufs_held, Pipeline.unscopedRest_split (launch0 (F := F)).pre c (V1 m c)] at h
      exact h
    rw [tblHeld0] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W2`, left with them at `W3`. Its arrays are
    split out of the unscoped buffers and put back at what the write-backs leave; the positions' table goes into the carried
    invariant whole and comes back whole; the generator register likewise; nothing is owed; the kernel has no semaphore of its own. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (a1 m) (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop((∃ r, prngReg c r) ∗ tbPt c (tbl1 m 0))
  Z c := Pipeline.unscopedRestP (Ix := Unit) (Name := ℕ) (U := UR sig nD τ) (Lvl := ℕ) pre1 spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0)
            ∗ Pipeline.prefHeld pre1 c (fun _ => fullShare) (fun k => V2 m c (pre1.ref k)) ∗ Pipeline.unscopedRestP pre1 spec1 c (V2 m c)) := by
      have h := Pipeline.arrays_of_unscopedBufs (p := 1) (pcfgs (F := F)) (adm m) (pdats m) (launch1 (F := F)).win (launch1 (F := F)).arr_whole c
        ((pdats m 1 c).share_full fun _ => rfl) (V2 m c) fun _ => rfl
      rw [Pipeline.unscopedBufs_held, Pipeline.unscopedRest_split (launch1 (F := F)).pre c (V2 m c)] at h
      exact h
    rw [tblHeld1] at hsplit
    iintro ⟨⟨Hub, Hp, HO⟩, -, -⟩
    ihave H := hsplit $$ Hub
    icases H with ⟨Ha, Ht, Hrest⟩
    imodintro
    isplitl [Ha]; · iexact Ha
    isplitl [Ht]
    · iapply (show (tbPt c (tbl1 m 0) : sProp 𝕄) ⊢ Pipeline.prefHeld pre1 c (fun _ => fullShare) (tbl1 m) from by rw [prefHeld1_eq])
      iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld pre1 c (fun _ => fullShare) (tbl1 m) ∗ Pipeline.scopedRest spec1 c)
      ⊢ iprop(Pipeline.ΦA spec1 c ∗ tbPt c (tbl1 m 0))
    rw [prefHeld1_eq]
    unfold Pipeline.ΦA
    iintro ⟨Hp, Ht, Hr⟩
    isplitr [Ht]
    · isplitl [Hr]; · iexact Hr
      iexact Hp
    iexact Ht
  hout c := by
    rw [Pipeline.ownSems0_none]
    show iprop(Pipeline.ΦA spec1 c ∗ tbPt c (tbl1 m 0))
      ⊢ iprop(((∃ r, prngReg c r) ∗ tbPt c (tbl1 m 0)) ∗ BI.emp ∗ Pipeline.scopedRest spec1 c)
    unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m 1 c).arrays ((pdats m 1 c).arrAt · (cfg1 (a1 m)).N)
          ∗ Pipeline.prefHeld pre1 c (fun _ => fullShare) (fun k => V2 m c (pre1.ref k)) ∗ Pipeline.unscopedRestP pre1 spec1 c (V2 m c))
        ⊢ (StableHlo.held (c : Thread nD τ) (Pipeline.ucRefs τ sig) (W3 m c) : sProp 𝕄) := by
      have h := Pipeline.unscopedBufs_of_arrays (p := 1) (pcfgs (F := F)) (adm m) (Ix := Unit) (Name := ℕ) (U := UR sig nD τ) (Lvl := ℕ)
        (launch1 (F := F)).win (launch1 (F := F)).arr_whole c (pdats m) ((pdats m 1 c).share_full fun _ => rfl)
        (V2 m c) (V3 m c) ((pdats m 1 c).arrAt · (cfg1 (a1 m)).N) (hF1 m c) (hrest1 m c)
      rw [Pipeline.unscopedBufs_held, Pipeline.unscopedRest_split (launch1 (F := F)).pre c (V2 m c)] at h
      exact h
    rw [tblHeld1] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m) (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting, and every
    final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched: no host operation writes one, and each pallas call only reads them -/

/-- The host reshape writes only the table: the caches and the new token's arrays reach pallas call 0 as launched. -/
theorem V1_arg (c : Dev nD) (b : Ref sig .tc) (hb : b ≠ main_v0) : V1 m c b = m ((c : Thread nD τ).loc b) := by
  show StableHlo.after hostOps0 (W0 m c) (Proc.devRef .tc b) = _
  refine StableHlo.after_of_forall_not_mem (b := Proc.devRef .tc b) _ _ (List.forall_iff_forall_mem.mp ?_)
  simp only [hostOps0, List.Forall, StableHlo.reshape_writes, Finset.mem_singleton]
  exact StableHlo.devRef_ne_of_ne hb

/-- The arguments are never written: each ends as launched. -/
theorem arg_kept (c : Dev nD) (b : Ref sig .tc) (hb : b = main_arg0 ∨ b = main_arg1 ∨ b = main_arg2 ∨ b = main_arg3 ∨ b = main_arg4) :
    W4 m c (Proc.devRef .tc b) = m ((c : Thread nD τ).loc b) := by
  have h4 : W4 m c (Proc.devRef .tc b) = W3 m c (Proc.devRef .tc b) := by
    refine StableHlo.after_of_forall_not_mem (b := Proc.devRef .tc b) _ _ (List.forall_iff_forall_mem.mp ?_)
    simp only [hostOps2, List.Forall, StableHlo.unary_writes, StableHlo.binary_writes, Finset.mem_singleton]
    rcases hb with rfl | rfl | rfl | rfl | rfl <;>
      exact ⟨StableHlo.devRef_ne_of_ne (by decide), StableHlo.devRef_ne_of_ne (by decide), StableHlo.devRef_ne_of_ne (by decide)⟩
  rw [h4]
  rcases hb with rfl | rfl | rfl | rfl | rfl
  · exact (W3_of_ne m c main_arg0 (by decide)).trans (((W2_arr m c 0).trans ((dat0 (a0 m) (V1 m) c).arrAt_in 0 rfl _)).trans (V1_arg m c main_arg0 (by decide)))
  · exact ((W3_arr m c 0).trans ((dat1 (a1 m) (V2 m) c).arrAt_in 0 rfl _)).trans ((W2_of_ne m c main_arg1 (by decide)).trans (V1_arg m c main_arg1 (by decide)))
  · exact (W3_of_ne m c main_arg2 (by decide)).trans (((W2_arr m c 1).trans ((dat0 (a0 m) (V1 m) c).arrAt_in 1 rfl _)).trans (V1_arg m c main_arg2 (by decide)))
  · exact ((W3_arr m c 1).trans ((dat1 (a1 m) (V2 m) c).arrAt_in 1 rfl _)).trans ((W2_of_ne m c main_arg3 (by decide)).trans (V1_arg m c main_arg3 (by decide)))
  · exact (W3_of_ne m c main_arg4 (by decide)).trans ((W2_of_ne m c main_arg4 (by decide)).trans (V1_arg m c main_arg4 (by decide)))

/-- An unscoped buffer is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (arg_kept m c main_arg0 (.inl rfl)),
     (h c _ (mem_uc main_arg1 (by decide))).trans (arg_kept m c main_arg1 (.inr (.inl rfl))),
     (h c _ (mem_uc main_arg2 (by decide))).trans (arg_kept m c main_arg2 (.inr (.inr (.inl rfl)))),
     (h c _ (mem_uc main_arg3 (by decide))).trans (arg_kept m c main_arg3 (.inr (.inr (.inr (.inl rfl))))),
     (h c _ (mem_uc main_arg4 (by decide))).trans (arg_kept m c main_arg4 (.inr (.inr (.inr (.inr rfl)))))⟩)
    (run m ρ)

end Cert.KernelIdeal.Rows

end
-- ==== Proof.Spec.lean ====
/-
  The specification both programs meet, over the literal shapes.

  A key/value cache holds, per layer l, batch entry b and head h, a table of 4096 rows of 128 lanes.
  One decoding step writes the new token's row into row `pos b` of every table of batch entry b and
  leaves every other row as it was: `upd`. The result stacks the updated key caches and the updated
  value caches along a new leading axis: `stack`, spelt as the two broadcasts and the concatenation
  both programs end with, so that neither side ever opens it.
-/
import Idealize.ShloMosaic.PureOps
import Idealize.ShloMosaic.Lib.ValueIdx

noncomputable section

namespace Cert.Spec

open Idealize.ShloMosaic Idealize.ShloMosaic.ValueIdx

/-- The caches: layer, batch entry, head, row, lane. -/
abbrev SCache : Shape := ⟨5, ![2, 8, 8, 4096, 128]⟩
/-- The new token's keys or values: one row per layer, batch entry and head. -/
abbrev SNew : Shape := ⟨5, ![2, 8, 8, 1, 128]⟩
/-- The row each batch entry writes. -/
abbrev SPos : Shape := ⟨2, ![8, 1]⟩
/-- A cache under a leading axis of extent one, and the stacked pair. -/
abbrev SLift : Shape := ⟨6, ![1, 2, 8, 8, 4096, 128]⟩
abbrev SOut : Shape := ⟨6, ![2, 2, 8, 8, 4096, 128]⟩

/-- Where entry `i` of a cache finds its batch entry's row number. -/
abbrev posIdx (i : SCache.Idx) : SPos.Idx := ix2 (n0 := 8) (n1 := 1) (i 1) 0
/-- Where entry `i` of a cache finds the new token's value for its layer, batch entry, head and lane. -/
abbrev newIdx (i : SCache.Idx) : SNew.Idx := ix5 (n0 := 2) (n1 := 8) (n2 := 8) (n3 := 1) (n4 := 128) (i 0) (i 1) (i 2) 0 (i 4)

/-- The cache after the step: row `pos b` of batch entry `b` is the new token's, every other row the old one.
    The row number is compared as a 32-bit word, which is how both programs meet it. -/
def upd {α : Type} (cache : SCache.Idx → α) (new : SNew.Idx → α) (pos : SPos.Idx → BitVec 32) : SCache.Idx → α :=
  fun i => if BitVec.ofNat 32 (i 3).val = pos (posIdx i) then new (newIdx i) else cache i

theorem upd_apply {α : Type} (cache : SCache.Idx → α) (new : SNew.Idx → α) (pos : SPos.Idx → BitVec 32) (i : SCache.Idx) :
    upd cache new pos i = if BitVec.ofNat 32 (i 3).val = pos (posIdx i) then new (newIdx i) else cache i := rfl

/-- The update at an index, from what the position, the new token's entry and the old entry there are. -/
theorem upd_eq_of {α : Type} (cache : SCache.Idx → α) (new : SNew.Idx → α) (pos : SPos.Idx → BitVec 32) (i : SCache.Idx)
    (w : BitVec 32) (a b : α) (hw : pos (posIdx i) = w) (ha : new (newIdx i) = a) (hb : cache i = b) :
    upd cache new pos i = if BitVec.ofNat 32 (i 3).val = w then a else b := by
  subst hw ha hb; rfl

/-- The two updated caches stacked on a new leading axis: each lifted under an axis of extent one, the two joined. -/
def stack {α : Type} (hb : SCache.BroadcastsInDim SLift (![1, 2, 3, 4, 5] : Fin 5 → Fin SLift.rank))
    (hc : Shape.Concatenates [SLift, SLift] SOut 0) (k v : SCache.Idx → α) : SOut.Idx → α :=
  concatenate SOut 0 [⟨SLift, broadcastInDim SLift ![1, 2, 3, 4, 5] hb k⟩, ⟨SLift, broadcastInDim SLift ![1, 2, 3, 4, 5] hb v⟩] hc

end Cert.Spec

end
-- ==== Proof.KIdealValue.lean ====
/-
  What the kernel program computes: each pallas call's output array ends as the cache with, for every batch entry, the row
  at the batch entry's position replaced by the new token's row; the result buffer ends as the two updated caches stacked;
  the arguments end as launched.
-/
import proofs.«414916_j8864812499506_1_alg».proof.Proof.KIdealRun
import proofs.«414916_j8864812499506_1_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.Lib.StableHlo.Run

set_option maxRecDepth 16384

noncomputable section

namespace Cert.KernelIdeal.Rows

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem hz5 : (![0, 0, 0, 0, 0] : Fin 5 → Nat) = fun _ => 0 := funext fun a => by fin_cases a <;> rfl

/-- The body's arithmetic at row `r`, lane `d` of the staged table: the new token's lane where the row's number, as a word, is
    the position read; the old entry elsewhere. -/
theorem pay0_apply (w : Elt F .i32) (x0 : Vec F S1x1x1x4096x128 .f32) (x1 : Vec F S1x1x1x1x128 .f32) (r : Fin 4096) (d : Fin 128) :
    k0_pay1 w x0 x1 (ix5 (0 : Fin 1) (0 : Fin 1) (0 : Fin 1) r d)
      = if BitVec.ofNat 32 r.val = w then x1 (ix5 (0 : Fin 1) (0 : Fin 1) (0 : Fin 1) (0 : Fin 1) d)
        else x0 (ix5 (0 : Fin 1) (0 : Fin 1) (0 : Fin 1) r d) := by
  have e1 : shapeCast S4096x128 x0 shapeCasts_S1x1x1x4096x128_S4096x128 (ix2 r d) = x0 (ix5 (0 : Fin 1) (0 : Fin 1) (0 : Fin 1) r d) :=
    shapeCast_apply x0 _ (ix2 r d) (ix5 (0 : Fin 1) (0 : Fin 1) (0 : Fin 1) r d) (by
      rw [Shape.rowMajor_val_two, Shape.rowMajor_val_five]
      show ((((0 * 1 + 0) * 1 + 0) * 4096 + r.val) * 128 + d.val) = r.val * 128 + d.val
      omega)
  have e2 : broadcastTo S4096x128 (shapeCast S1x128 (shapeCast S1x128 (shapeCast S128 x1 shapeCasts_S1x1x1x1x128_S128) shapeCasts_S128_S1x128)
        shapeCasts_S1x128_S1x128) broadcasts_S1x128_S4096x128 (ix2 r d) = x1 (ix5 (0 : Fin 1) (0 : Fin 1) (0 : Fin 1) (0 : Fin 1) d) := by
    rw [broadcastTo_1b_ab_apply, shapeCast_self, shapeCast_a_1a_apply]
    exact shapeCast_apply x1 _ (ValueIdx.ix1 d) (ix5 (0 : Fin 1) (0 : Fin 1) (0 : Fin 1) (0 : Fin 1) d) (by
      rw [Shape.rowMajor_val_one, Shape.rowMajor_val_five]
      show ((((0 * 1 + 0) * 1 + 0) * 1 + 0) * 128 + d.val) = d.val
      omega)
  have e3 : iota .tc S4096x128 32 [0] iota_S4096x128_d0_w32 (ix2 r d) = BitVec.ofNat 32 r.val :=
    iota_single_apply .tc S4096x128 32 0 iota_S4096x128_d0_w32 (ix2 r d)
  show shapeCast S1x1x1x4096x128 (select (cmpi .eq (iota .tc S4096x128 32 [0] iota_S4096x128_d0_w32) (broadcast S4096x128 w))
      (broadcastTo S4096x128 (shapeCast S1x128 (shapeCast S1x128 (shapeCast S128 x1 shapeCasts_S1x1x1x1x128_S128) shapeCasts_S128_S1x128)
        shapeCasts_S1x128_S1x128) broadcasts_S1x128_S4096x128)
      (shapeCast S4096x128 x0 shapeCasts_S1x1x1x4096x128_S4096x128)) shapeCasts_S4096x128_S1x1x1x4096x128
      (ix5 (0 : Fin 1) (0 : Fin 1) (0 : Fin 1) r d) = _
  refine (shapeCast_apply _ shapeCasts_S4096x128_S1x1x1x4096x128 (ix5 (0 : Fin 1) (0 : Fin 1) (0 : Fin 1) r d) (ix2 r d) (by
      rw [Shape.rowMajor_val_two, Shape.rowMajor_val_five]
      show r.val * 128 + d.val = ((((0 * 1 + 0) * 1 + 0) * 4096 + r.val) * 128 + d.val)
      omega)).trans ?_
  show Scalar.select (IntOp.cmpi .eq (iota .tc S4096x128 32 [0] iota_S4096x128_d0_w32 (ix2 r d)) w)
      (broadcastTo S4096x128 (shapeCast S1x128 (shapeCast S1x128 (shapeCast S128 x1 shapeCasts_S1x1x1x1x128_S128) shapeCasts_S128_S1x128)
        shapeCasts_S1x128_S1x128) broadcasts_S1x128_S4096x128 (ix2 r d))
      (shapeCast S4096x128 x0 shapeCasts_S1x1x1x4096x128_S4096x128 (ix2 r d)) = _
  rw [e1, e2, e3]
  unfold Scalar.select
  exact if_congr IntOp.cmpi_eq rfl rfl

/-- The body's arithmetic at row `r`, lane `d` of the staged table: the new token's lane where the row's number, as a word, is
    the position read; the old entry elsewhere. -/
theorem pay1_apply (w : Elt F .i32) (x0 : Vec F S1x1x1x4096x128 .f32) (x1 : Vec F S1x1x1x1x128 .f32) (r : Fin 4096) (d : Fin 128) :
    k1_pay1 w x0 x1 (ix5 (0 : Fin 1) (0 : Fin 1) (0 : Fin 1) r d)
      = if BitVec.ofNat 32 r.val = w then x1 (ix5 (0 : Fin 1) (0 : Fin 1) (0 : Fin 1) (0 : Fin 1) d)
        else x0 (ix5 (0 : Fin 1) (0 : Fin 1) (0 : Fin 1) r d) := by
  have e1 : shapeCast S4096x128 x0 shapeCasts_S1x1x1x4096x128_S4096x128 (ix2 r d) = x0 (ix5 (0 : Fin 1) (0 : Fin 1) (0 : Fin 1) r d) :=
    shapeCast_apply x0 _ (ix2 r d) (ix5 (0 : Fin 1) (0 : Fin 1) (0 : Fin 1) r d) (by
      rw [Shape.rowMajor_val_two, Shape.rowMajor_val_five]
      show ((((0 * 1 + 0) * 1 + 0) * 4096 + r.val) * 128 + d.val) = r.val * 128 + d.val
      omega)
  have e2 : broadcastTo S4096x128 (shapeCast S1x128 (shapeCast S1x128 (shapeCast S128 x1 shapeCasts_S1x1x1x1x128_S128) shapeCasts_S128_S1x128)
        shapeCasts_S1x128_S1x128) broadcasts_S1x128_S4096x128 (ix2 r d) = x1 (ix5 (0 : Fin 1) (0 : Fin 1) (0 : Fin 1) (0 : Fin 1) d) := by
    rw [broadcastTo_1b_ab_apply, shapeCast_self, shapeCast_a_1a_apply]
    exact shapeCast_apply x1 _ (ValueIdx.ix1 d) (ix5 (0 : Fin 1) (0 : Fin 1) (0 : Fin 1) (0 : Fin 1) d) (by
      rw [Shape.rowMajor_val_one, Shape.rowMajor_val_five]
      show ((((0 * 1 + 0) * 1 + 0) * 1 + 0) * 128 + d.val) = d.val
      omega)
  have e3 : iota .tc S4096x128 32 [0] iota_S4096x128_d0_w32 (ix2 r d) = BitVec.ofNat 32 r.val :=
    iota_single_apply .tc S4096x128 32 0 iota_S4096x128_d0_w32 (ix2 r d)
  show shapeCast S1x1x1x4096x128 (select (cmpi .eq (iota .tc S4096x128 32 [0] iota_S4096x128_d0_w32) (broadcast S4096x128 w))
      (broadcastTo S4096x128 (shapeCast S1x128 (shapeCast S1x128 (shapeCast S128 x1 shapeCasts_S1x1x1x1x128_S128) shapeCasts_S128_S1x128)
        shapeCasts_S1x128_S1x128) broadcasts_S1x128_S4096x128)
      (shapeCast S4096x128 x0 shapeCasts_S1x1x1x4096x128_S4096x128)) shapeCasts_S4096x128_S1x1x1x4096x128
      (ix5 (0 : Fin 1) (0 : Fin 1) (0 : Fin 1) r d) = _
  refine (shapeCast_apply _ shapeCasts_S4096x128_S1x1x1x4096x128 (ix5 (0 : Fin 1) (0 : Fin 1) (0 : Fin 1) r d) (ix2 r d) (by
      rw [Shape.rowMajor_val_two, Shape.rowMajor_val_five]
      show r.val * 128 + d.val = ((((0 * 1 + 0) * 1 + 0) * 4096 + r.val) * 128 + d.val)
      omega)).trans ?_
  show Scalar.select (IntOp.cmpi .eq (iota .tc S4096x128 32 [0] iota_S4096x128_d0_w32 (ix2 r d)) w)
      (broadcastTo S4096x128 (shapeCast S1x128 (shapeCast S1x128 (shapeCast S128 x1 shapeCasts_S1x1x1x1x128_S128) shapeCasts_S128_S1x128)
        shapeCasts_S1x128_S1x128) broadcasts_S1x128_S4096x128 (ix2 r d))
      (shapeCast S4096x128 x0 shapeCasts_S1x1x1x4096x128_S4096x128 (ix2 r d)) = _
  rw [e1, e2, e3]
  unfold Scalar.select
  exact if_congr IntOp.cmpi_eq rfl rfl

/-! ## Pallas call 0: what its output array ends holding -/

section Region0

variable (a0 : (pcfg0 (F := F)).Adm)
variable (V : (c : Dev nD) → (b : Ref sig .tc) → Buf (Elt F) ((c : Thread nD τ).loc b))

/-- The printed index maps, decided over the grid: every window's block index at a point is the point's (layer, batch entry,
    head), then row block 0, lane block 0; the offset of the body's scalar load is the point's batch entry; the output is
    written back at every point. -/
theorem idx_facts0 : ∀ t : Fin grid0.N,
    cc0_transform_0 (grid0.coords t) = ![(grid0.coords t 0).val, (grid0.coords t 1).val, (grid0.coords t 2).val, 0, 0]
    ∧ cc0_transform_1 (grid0.coords t) = ![(grid0.coords t 0).val, (grid0.coords t 1).val, (grid0.coords t 2).val, 0, 0]
    ∧ cc0_transform_2 (grid0.coords t) = ![(grid0.coords t 0).val, (grid0.coords t 1).val, (grid0.coords t 2).val, 0, 0]
    ∧ k0_off1 (grid0.coords t) = ![(grid0.coords t 1).val] := by decide +kernel
theorem flush0_2 : ∀ t : Fin (cfg0 a0).N, ((cfg0 a0).win 2).flush t = true :=
  (by decide +kernel : ∀ t : Fin grid0.N, Pipeline.Window.flushOf grid0 true cc0_transform_2 t = true)
/-- Every (layer, batch entry, head) is some point's. -/
theorem idx_onto0 : ∀ (q0 : Fin 2) (q1 : Fin 8) (q2 : Fin 8), ∃ t : Fin grid0.N,
    (grid0.coords t 0).val = q0.val ∧ (grid0.coords t 1).val = q1.val ∧ (grid0.coords t 2).val = q2.val := by decide +kernel

/-- The word the body reads at point `t` is the table's entry of the point's batch entry. -/
theorem posWord0_eq (c : Dev nD) (t : Fin grid0.N) (xt : TbBuf (F := F) c) :
    posWord0 c (grid0.coords t) xt = xt (ValueIdx.ix1 (n := 8) (grid0.coords t 1)) := by
  show xt ((Rect.unit (s := S8) (k0_off1 (grid0.coords t)) S1.size (k0_off1_inb (grid0.coords t))).emb _) = _
  congr 1
  funext a; apply Fin.ext
  match a with
  | ⟨0, _⟩ =>
    show (k0_off1 (grid0.coords t)) 0 + 1 * 0 = (grid0.coords t 1).val
    rw [(idx_facts0 t).2.2.2]; rfl

/-- An index of a staged table is (0, 0, 0, row, lane). -/
theorem blockIdx_eq0 (j : S1x1x1x4096x128.Idx) : ∃ (r : Fin 4096) (d : Fin 128), j = ix5 (0 : Fin 1) (0 : Fin 1) (0 : Fin 1) r d :=
  ⟨j 3, j 4, funext fun a => Fin.ext <| match a with
    | ⟨0, _⟩ => Nat.lt_one_iff.mp (j 0).isLt
    | ⟨1, _⟩ => Nat.lt_one_iff.mp (j 1).isLt
    | ⟨2, _⟩ => Nat.lt_one_iff.mp (j 2).isLt
    | ⟨3, _⟩ => rfl
    | ⟨4, _⟩ => rfl⟩

/-- The output buffer after the body, at row `r`, lane `d`. -/
theorem out0_2_apply (c : Dev nD) (i : grid0.Coords) (xt : TbBuf (F := F) c) (x0 : Vec F S1x1x1x4096x128 .f32) (x1 : Vec F S1x1x1x1x128 .f32)
    (r : Fin 4096) (d : Fin 128) :
    out0_2 c i xt x0 x1 (ix5 (0 : Fin 1) (0 : Fin 1) (0 : Fin 1) r d)
      = if BitVec.ofNat 32 r.val = posWord0 c i xt then x1 (ix5 (0 : Fin 1) (0 : Fin 1) (0 : Fin 1) (0 : Fin 1) d)
        else x0 (ix5 (0 : Fin 1) (0 : Fin 1) (0 : Fin 1) r d) := by
  unfold out0_2
  rw [View.canon_unit_zero hz5, View.ld_unit_zero (S := S1x1x1x4096x128) hz5, View.ld_unit_zero (S := S1x1x1x1x128) hz5]
  exact pay0_apply _ x0 x1 r d

/-- WHAT POINT `t` WRITES BACK is block `t` of the updated cache: the table of the point's layer, batch entry and head, with the
    row at the batch entry's position replaced by the new token's. -/
theorem flushed0_eq (c : Dev nD) (t : Fin (cfg0 a0).N) :
    (dat0 a0 V c).flushed 2 t = (((cfg0 a0).win 2).blk t).view.read (Elt F)
      (Cert.Spec.upd (V c main_arg0) (V c main_arg2) (fun p => a0.1 0 (ValueIdx.ix1 (n := 8) (p 0)))) := by
  show ((cfg0 a0).win 2).cut (grid0.coords t) ((dat0 a0 V c).after 2 t) = _
  rw [after0_2]
  obtain ⟨e0, e1, e2, e3⟩ := idx_facts0 t
  funext j
  obtain ⟨r, d, rfl⟩ := blockIdx_eq0 j
  refine (out0_2_apply c (grid0.coords t) (a0.1 0) (iblk0 a0 V c 0 t) (iblk0 a0 V c 1 t) r d).trans ?_
  -- the staged blocks, read where they sit in their arrays
  have h0 : iblk0 a0 V c 0 t (ix5 (0 : Fin 1) (0 : Fin 1) (0 : Fin 1) r d)
      = V c main_arg0 (ix5 (n0 := 2) (n1 := 8) (n2 := 8) (n3 := 4096) (n4 := 128) (grid0.coords t 0) (grid0.coords t 1) (grid0.coords t 2) r d) := by
    show V c main_arg0 ((((cfg0 a0).win 0).blk t).view.emb (ix5 (0 : Fin 1) (0 : Fin 1) (0 : Fin 1) r d)) = _
    congr 1; funext a; apply Fin.ext
    match a with
    | ⟨0, _⟩ => show cc0_transform_0 (grid0.coords t) 0 * 1 + 1 * 0 = (grid0.coords t 0).val; rw [e0]; simp
    | ⟨1, _⟩ => show cc0_transform_0 (grid0.coords t) 1 * 1 + 1 * 0 = (grid0.coords t 1).val; rw [e0]; simp
    | ⟨2, _⟩ => show cc0_transform_0 (grid0.coords t) 2 * 1 + 1 * 0 = (grid0.coords t 2).val; rw [e0]; simp
    | ⟨3, _⟩ => show cc0_transform_0 (grid0.coords t) 3 * 4096 + 1 * r.val = r.val; rw [e0]; simp
    | ⟨4, _⟩ => show cc0_transform_0 (grid0.coords t) 4 * 128 + 1 * d.val = d.val; rw [e0]; simp
  have h1 : iblk0 a0 V c 1 t (ix5 (0 : Fin 1) (0 : Fin 1) (0 : Fin 1) (0 : Fin 1) d)
      = V c main_arg2 (ix5 (n0 := 2) (n1 := 8) (n2 := 8) (n3 := 1) (n4 := 128) (grid0.coords t 0) (grid0.coords t 1) (grid0.coords t 2) 0 d) := by
    show V c main_arg2 ((((cfg0 a0).win 1).blk t).view.emb (ix5 (0 : Fin 1) (0 : Fin 1) (0 : Fin 1) (0 : Fin 1) d)) = _
    congr 1; funext a; apply Fin.ext
    match a with
    | ⟨0, _⟩ => show cc0_transform_1 (grid0.coords t) 0 * 1 + 1 * 0 = (grid0.coords t 0).val; rw [e1]; simp
    | ⟨1, _⟩ => show cc0_transform_1 (grid0.coords t) 1 * 1 + 1 * 0 = (grid0.coords t 1).val; rw [e1]; simp
    | ⟨2, _⟩ => show cc0_transform_1 (grid0.coords t) 2 * 1 + 1 * 0 = (grid0.coords t 2).val; rw [e1]; simp
    | ⟨3, _⟩ => show cc0_transform_1 (grid0.coords t) 3 * 1 + 1 * 0 = 0; rw [e1]; simp
    | ⟨4, _⟩ => show cc0_transform_1 (grid0.coords t) 4 * 128 + 1 * d.val = d.val; rw [e1]; simp
  have h2 : (((cfg0 a0).win 2).blk t).view.emb (ix5 (0 : Fin 1) (0 : Fin 1) (0 : Fin 1) r d)
      = ix5 (n0 := 2) (n1 := 8) (n2 := 8) (n3 := 4096) (n4 := 128) (grid0.coords t 0) (grid0.coords t 1) (grid0.coords t 2) r d := by
    funext a; apply Fin.ext
    match a with
    | ⟨0, _⟩ => show cc0_transform_2 (grid0.coords t) 0 * 1 + 1 * 0 = (grid0.coords t 0).val; rw [e2]; simp
    | ⟨1, _⟩ => show cc0_transform_2 (grid0.coords t) 1 * 1 + 1 * 0 = (grid0.coords t 1).val; rw [e2]; simp
    | ⟨2, _⟩ => show cc0_transform_2 (grid0.coords t) 2 * 1 + 1 * 0 = (grid0.coords t 2).val; rw [e2]; simp
    | ⟨3, _⟩ => show cc0_transform_2 (grid0.coords t) 3 * 4096 + 1 * r.val = r.val; rw [e2]; simp
    | ⟨4, _⟩ => show cc0_transform_2 (grid0.coords t) 4 * 128 + 1 * d.val = d.val; rw [e2]; simp
  have hw := posWord0_eq c t (a0.1 0)
  refine Eq.trans ?_ (congrArg (Cert.Spec.upd (V c main_arg0) (V c main_arg2) (fun p => a0.1 0 (ValueIdx.ix1 (n := 8) (p 0)))) h2.symm)
  exact (Cert.Spec.upd_eq_of (V c main_arg0) (V c main_arg2) (fun p => a0.1 0 (ValueIdx.ix1 (n := 8) (p 0)))
    (ix5 (n0 := 2) (n1 := 8) (n2 := 8) (n3 := 4096) (n4 := 128) (grid0.coords t 0) (grid0.coords t 1) (grid0.coords t 2) r d)
    (posWord0 c (grid0.coords t) (a0.1 0)) _ _ hw.symm h1.symm h0.symm).symm

/-- Every entry of the cache is under the block of the point of its layer, batch entry and head. -/
theorem cover0 (i : S2x8x8x4096x128.Idx) :
    ∃ t : Fin (cfg0 a0).N, ((cfg0 a0).win 2).flush t = true ∧ i ∈ (((cfg0 a0).win 2).blk t).view.set := by
  obtain ⟨t, q0, q1, q2⟩ := idx_onto0 (i 0) (i 1) (i 2)
  obtain ⟨-, -, e2, -⟩ := idx_facts0 t
  have f0 : cc0_transform_2 (grid0.coords t) 0 = (grid0.coords t 0).val := by rw [e2]; rfl
  have f1 : cc0_transform_2 (grid0.coords t) 1 = (grid0.coords t 1).val := by rw [e2]; rfl
  have f2 : cc0_transform_2 (grid0.coords t) 2 = (grid0.coords t 2).val := by rw [e2]; rfl
  have f3 : cc0_transform_2 (grid0.coords t) 3 = 0 := by rw [e2]; rfl
  have f4 : cc0_transform_2 (grid0.coords t) 4 = 0 := by rw [e2]; rfl
  refine ⟨t, flush0_2 a0 t, ?_⟩
  have hi : i = (((cfg0 a0).win 2).blk t).view.emb
      (ix5 (n0 := 1) (n1 := 1) (n2 := 1) (n3 := 4096) (n4 := 128) (0 : Fin 1) (0 : Fin 1) (0 : Fin 1) (i 3) (i 4)) := by
    funext a; apply Fin.ext
    match a with
    | ⟨0, _⟩ => show (i 0).val = cc0_transform_2 (grid0.coords t) 0 * 1 + 1 * 0; rw [f0]; omega
    | ⟨1, _⟩ => show (i 1).val = cc0_transform_2 (grid0.coords t) 1 * 1 + 1 * 0; rw [f1]; omega
    | ⟨2, _⟩ => show (i 2).val = cc0_transform_2 (grid0.coords t) 2 * 1 + 1 * 0; rw [f2]; omega
    | ⟨3, _⟩ => show (i 3).val = cc0_transform_2 (grid0.coords t) 3 * 4096 + 1 * (i 3).val; rw [f3]; omega
    | ⟨4, _⟩ => show (i 4).val = cc0_transform_2 (grid0.coords t) 4 * 128 + 1 * (i 4).val; rw [f4]; omega
  exact Eq.mpr (congrArg (fun z => z ∈ (((cfg0 a0).win 2).blk t).view.set) hi) ((((cfg0 a0).win 2).blk t).view.emb_mem_set _)

/-- THE OUTPUT ARRAY after the pallas call: the cache with, for every batch entry, the row at its position replaced. -/
theorem final0 (c : Dev nD) :
    (dat0 a0 V c).arrAt 2 (cfg0 a0).N
      = Cert.Spec.upd (V c main_arg0) (V c main_arg2) (fun p => a0.1 0 (ValueIdx.ix1 (n := 8) (p 0))) :=
  (dat0 a0 V c).arrAt_eq_of_cover 2 _ (fun t _ => flushed0_eq a0 V c t) (cover0 a0)

end Region0

/-! ## Pallas call 1: what its output array ends holding -/

section Region1

variable (a1 : (pcfg1 (F := F)).Adm)
variable (V : (c : Dev nD) → (b : Ref sig .tc) → Buf (Elt F) ((c : Thread nD τ).loc b))

/-- The printed index maps, decided over the grid: every window's block index at a point is the point's (layer, batch entry,
    head), then row block 0, lane block 0; the offset of the body's scalar load is the point's batch entry; the output is
    written back at every point. -/
theorem idx_facts1 : ∀ t : Fin grid1.N,
    cc1_transform_0 (grid1.coords t) = ![(grid1.coords t 0).val, (grid1.coords t 1).val, (grid1.coords t 2).val, 0, 0]
    ∧ cc1_transform_1 (grid1.coords t) = ![(grid1.coords t 0).val, (grid1.coords t 1).val, (grid1.coords t 2).val, 0, 0]
    ∧ cc1_transform_2 (grid1.coords t) = ![(grid1.coords t 0).val, (grid1.coords t 1).val, (grid1.coords t 2).val, 0, 0]
    ∧ k1_off1 (grid1.coords t) = ![(grid1.coords t 1).val] := by decide +kernel
theorem flush1_2 : ∀ t : Fin (cfg1 a1).N, ((cfg1 a1).win 2).flush t = true :=
  (by decide +kernel : ∀ t : Fin grid1.N, Pipeline.Window.flushOf grid1 true cc1_transform_2 t = true)
/-- Every (layer, batch entry, head) is some point's. -/
theorem idx_onto1 : ∀ (q0 : Fin 2) (q1 : Fin 8) (q2 : Fin 8), ∃ t : Fin grid1.N,
    (grid1.coords t 0).val = q0.val ∧ (grid1.coords t 1).val = q1.val ∧ (grid1.coords t 2).val = q2.val := by decide +kernel

/-- The word the body reads at point `t` is the table's entry of the point's batch entry. -/
theorem posWord1_eq (c : Dev nD) (t : Fin grid1.N) (xt : TbBuf (F := F) c) :
    posWord1 c (grid1.coords t) xt = xt (ValueIdx.ix1 (n := 8) (grid1.coords t 1)) := by
  show xt ((Rect.unit (s := S8) (k1_off1 (grid1.coords t)) S1.size (k1_off1_inb (grid1.coords t))).emb _) = _
  congr 1
  funext a; apply Fin.ext
  match a with
  | ⟨0, _⟩ =>
    show (k1_off1 (grid1.coords t)) 0 + 1 * 0 = (grid1.coords t 1).val
    rw [(idx_facts1 t).2.2.2]; rfl

/-- An index of a staged table is (0, 0, 0, row, lane). -/
theorem blockIdx_eq1 (j : S1x1x1x4096x128.Idx) : ∃ (r : Fin 4096) (d : Fin 128), j = ix5 (0 : Fin 1) (0 : Fin 1) (0 : Fin 1) r d :=
  ⟨j 3, j 4, funext fun a => Fin.ext <| match a with
    | ⟨0, _⟩ => Nat.lt_one_iff.mp (j 0).isLt
    | ⟨1, _⟩ => Nat.lt_one_iff.mp (j 1).isLt
    | ⟨2, _⟩ => Nat.lt_one_iff.mp (j 2).isLt
    | ⟨3, _⟩ => rfl
    | ⟨4, _⟩ => rfl⟩

/-- The output buffer after the body, at row `r`, lane `d`. -/
theorem out1_2_apply (c : Dev nD) (i : grid1.Coords) (xt : TbBuf (F := F) c) (x0 : Vec F S1x1x1x4096x128 .f32) (x1 : Vec F S1x1x1x1x128 .f32)
    (r : Fin 4096) (d : Fin 128) :
    out1_2 c i xt x0 x1 (ix5 (0 : Fin 1) (0 : Fin 1) (0 : Fin 1) r d)
      = if BitVec.ofNat 32 r.val = posWord1 c i xt then x1 (ix5 (0 : Fin 1) (0 : Fin 1) (0 : Fin 1) (0 : Fin 1) d)
        else x0 (ix5 (0 : Fin 1) (0 : Fin 1) (0 : Fin 1) r d) := by
  unfold out1_2
  rw [View.canon_unit_zero hz5, View.ld_unit_zero (S := S1x1x1x4096x128) hz5, View.ld_unit_zero (S := S1x1x1x1x128) hz5]
  exact pay1_apply _ x0 x1 r d

/-- WHAT POINT `t` WRITES BACK is block `t` of the updated cache: the table of the point's layer, batch entry and head, with the
    row at the batch entry's position replaced by the new token's. -/
theorem flushed1_eq (c : Dev nD) (t : Fin (cfg1 a1).N) :
    (dat1 a1 V c).flushed 2 t = (((cfg1 a1).win 2).blk t).view.read (Elt F)
      (Cert.Spec.upd (V c main_arg1) (V c main_arg3) (fun p => a1.1 0 (ValueIdx.ix1 (n := 8) (p 0)))) := by
  show ((cfg1 a1).win 2).cut (grid1.coords t) ((dat1 a1 V c).after 2 t) = _
  rw [after1_2]
  obtain ⟨e0, e1, e2, e3⟩ := idx_facts1 t
  funext j
  obtain ⟨r, d, rfl⟩ := blockIdx_eq1 j
  refine (out1_2_apply c (grid1.coords t) (a1.1 0) (iblk1 a1 V c 0 t) (iblk1 a1 V c 1 t) r d).trans ?_
  -- the staged blocks, read where they sit in their arrays
  have h0 : iblk1 a1 V c 0 t (ix5 (0 : Fin 1) (0 : Fin 1) (0 : Fin 1) r d)
      = V c main_arg1 (ix5 (n0 := 2) (n1 := 8) (n2 := 8) (n3 := 4096) (n4 := 128) (grid1.coords t 0) (grid1.coords t 1) (grid1.coords t 2) r d) := by
    show V c main_arg1 ((((cfg1 a1).win 0).blk t).view.emb (ix5 (0 : Fin 1) (0 : Fin 1) (0 : Fin 1) r d)) = _
    congr 1; funext a; apply Fin.ext
    match a with
    | ⟨0, _⟩ => show cc1_transform_0 (grid1.coords t) 0 * 1 + 1 * 0 = (grid1.coords t 0).val; rw [e0]; simp
    | ⟨1, _⟩ => show cc1_transform_0 (grid1.coords t) 1 * 1 + 1 * 0 = (grid1.coords t 1).val; rw [e0]; simp
    | ⟨2, _⟩ => show cc1_transform_0 (grid1.coords t) 2 * 1 + 1 * 0 = (grid1.coords t 2).val; rw [e0]; simp
    | ⟨3, _⟩ => show cc1_transform_0 (grid1.coords t) 3 * 4096 + 1 * r.val = r.val; rw [e0]; simp
    | ⟨4, _⟩ => show cc1_transform_0 (grid1.coords t) 4 * 128 + 1 * d.val = d.val; rw [e0]; simp
  have h1 : iblk1 a1 V c 1 t (ix5 (0 : Fin 1) (0 : Fin 1) (0 : Fin 1) (0 : Fin 1) d)
      = V c main_arg3 (ix5 (n0 := 2) (n1 := 8) (n2 := 8) (n3 := 1) (n4 := 128) (grid1.coords t 0) (grid1.coords t 1) (grid1.coords t 2) 0 d) := by
    show V c main_arg3 ((((cfg1 a1).win 1).blk t).view.emb (ix5 (0 : Fin 1) (0 : Fin 1) (0 : Fin 1) (0 : Fin 1) d)) = _
    congr 1; funext a; apply Fin.ext
    match a with
    | ⟨0, _⟩ => show cc1_transform_1 (grid1.coords t) 0 * 1 + 1 * 0 = (grid1.coords t 0).val; rw [e1]; simp
    | ⟨1, _⟩ => show cc1_transform_1 (grid1.coords t) 1 * 1 + 1 * 0 = (grid1.coords t 1).val; rw [e1]; simp
    | ⟨2, _⟩ => show cc1_transform_1 (grid1.coords t) 2 * 1 + 1 * 0 = (grid1.coords t 2).val; rw [e1]; simp
    | ⟨3, _⟩ => show cc1_transform_1 (grid1.coords t) 3 * 1 + 1 * 0 = 0; rw [e1]; simp
    | ⟨4, _⟩ => show cc1_transform_1 (grid1.coords t) 4 * 128 + 1 * d.val = d.val; rw [e1]; simp
  have h2 : (((cfg1 a1).win 2).blk t).view.emb (ix5 (0 : Fin 1) (0 : Fin 1) (0 : Fin 1) r d)
      = ix5 (n0 := 2) (n1 := 8) (n2 := 8) (n3 := 4096) (n4 := 128) (grid1.coords t 0) (grid1.coords t 1) (grid1.coords t 2) r d := by
    funext a; apply Fin.ext
    match a with
    | ⟨0, _⟩ => show cc1_transform_2 (grid1.coords t) 0 * 1 + 1 * 0 = (grid1.coords t 0).val; rw [e2]; simp
    | ⟨1, _⟩ => show cc1_transform_2 (grid1.coords t) 1 * 1 + 1 * 0 = (grid1.coords t 1).val; rw [e2]; simp
    | ⟨2, _⟩ => show cc1_transform_2 (grid1.coords t) 2 * 1 + 1 * 0 = (grid1.coords t 2).val; rw [e2]; simp
    | ⟨3, _⟩ => show cc1_transform_2 (grid1.coords t) 3 * 4096 + 1 * r.val = r.val; rw [e2]; simp
    | ⟨4, _⟩ => show cc1_transform_2 (grid1.coords t) 4 * 128 + 1 * d.val = d.val; rw [e2]; simp
  have hw := posWord1_eq c t (a1.1 0)
  refine Eq.trans ?_ (congrArg (Cert.Spec.upd (V c main_arg1) (V c main_arg3) (fun p => a1.1 0 (ValueIdx.ix1 (n := 8) (p 0)))) h2.symm)
  exact (Cert.Spec.upd_eq_of (V c main_arg1) (V c main_arg3) (fun p => a1.1 0 (ValueIdx.ix1 (n := 8) (p 0)))
    (ix5 (n0 := 2) (n1 := 8) (n2 := 8) (n3 := 4096) (n4 := 128) (grid1.coords t 0) (grid1.coords t 1) (grid1.coords t 2) r d)
    (posWord1 c (grid1.coords t) (a1.1 0)) _ _ hw.symm h1.symm h0.symm).symm

/-- Every entry of the cache is under the block of the point of its layer, batch entry and head. -/
theorem cover1 (i : S2x8x8x4096x128.Idx) :
    ∃ t : Fin (cfg1 a1).N, ((cfg1 a1).win 2).flush t = true ∧ i ∈ (((cfg1 a1).win 2).blk t).view.set := by
  obtain ⟨t, q0, q1, q2⟩ := idx_onto1 (i 0) (i 1) (i 2)
  obtain ⟨-, -, e2, -⟩ := idx_facts1 t
  have f0 : cc1_transform_2 (grid1.coords t) 0 = (grid1.coords t 0).val := by rw [e2]; rfl
  have f1 : cc1_transform_2 (grid1.coords t) 1 = (grid1.coords t 1).val := by rw [e2]; rfl
  have f2 : cc1_transform_2 (grid1.coords t) 2 = (grid1.coords t 2).val := by rw [e2]; rfl
  have f3 : cc1_transform_2 (grid1.coords t) 3 = 0 := by rw [e2]; rfl
  have f4 : cc1_transform_2 (grid1.coords t) 4 = 0 := by rw [e2]; rfl
  refine ⟨t, flush1_2 a1 t, ?_⟩
  have hi : i = (((cfg1 a1).win 2).blk t).view.emb
      (ix5 (n0 := 1) (n1 := 1) (n2 := 1) (n3 := 4096) (n4 := 128) (0 : Fin 1) (0 : Fin 1) (0 : Fin 1) (i 3) (i 4)) := by
    funext a; apply Fin.ext
    match a with
    | ⟨0, _⟩ => show (i 0).val = cc1_transform_2 (grid1.coords t) 0 * 1 + 1 * 0; rw [f0]; omega
    | ⟨1, _⟩ => show (i 1).val = cc1_transform_2 (grid1.coords t) 1 * 1 + 1 * 0; rw [f1]; omega
    | ⟨2, _⟩ => show (i 2).val = cc1_transform_2 (grid1.coords t) 2 * 1 + 1 * 0; rw [f2]; omega
    | ⟨3, _⟩ => show (i 3).val = cc1_transform_2 (grid1.coords t) 3 * 4096 + 1 * (i 3).val; rw [f3]; omega
    | ⟨4, _⟩ => show (i 4).val = cc1_transform_2 (grid1.coords t) 4 * 128 + 1 * (i 4).val; rw [f4]; omega
  exact Eq.mpr (congrArg (fun z => z ∈ (((cfg1 a1).win 2).blk t).view.set) hi) ((((cfg1 a1).win 2).blk t).view.emb_mem_set _)

/-- THE OUTPUT ARRAY after the pallas call: the cache with, for every batch entry, the row at its position replaced. -/
theorem final1 (c : Dev nD) :
    (dat1 a1 V c).arrAt 2 (cfg1 a1).N
      = Cert.Spec.upd (V c main_arg1) (V c main_arg3) (fun p => a1.1 0 (ValueIdx.ix1 (n := 8) (p 0))) :=
  (dat1 a1 V c).arrAt_eq_of_cover 2 _ (fun t _ => flushed1_eq a1 V c t) (cover1 a1)

end Region1

/-! ## The whole run, read: the result buffer as the stacked pair of updated caches -/

section Whole

variable (m : (ℓ : Loc nD τ sig) → Buf (Elt F) ℓ)

/-- The table both pallas calls read is the positions' array with its unit axis dropped: batch entry `b`'s word is the
    position at (b, 0). -/
theorem table_eq (c : Dev nD) : W1 m c (Proc.devRef .tc main_v0) = shapeCast S8 (m ((c : Thread nD τ).loc main_arg4)) shapeCasts_S8x1_S8 := by
  show StableHlo.after hostOps0 (W0 m c) (Proc.devRef .tc main_v0) = _
  after_results
  rfl

theorem pos_eq (c : Dev nD) (v : TbBuf (F := F) c) (hv : v = shapeCast S8 (m ((c : Thread nD τ).loc main_arg4)) shapeCasts_S8x1_S8) :
    (fun p : Cert.Spec.SPos.Idx => v (ValueIdx.ix1 (n := 8) (p 0))) = m ((c : Thread nD τ).loc main_arg4) := by
  subst hv
  funext p
  have hp : (S8x1.rowMajor p).val = (S8.rowMajor (ValueIdx.ix1 (n := 8) (p 0))).val := by
    rw [Shape.rowMajor_val_two, Shape.rowMajor_val_one]
    have h1 : (p 1).val = 0 := Nat.lt_one_iff.mp (p 1).isLt
    show (p 0).val * 1 + (p 1).val = (p 0).val
    omega
  exact shapeCast_apply (s := S8x1) (t := S8) (m ((c : Thread nD τ).loc main_arg4)) shapeCasts_S8x1_S8 (ValueIdx.ix1 (n := 8) (p 0)) p hp

/-- What pallas call 0 leaves in its output array, in the launch memory's terms. -/
theorem out0_eq (c : Dev nD) :
    W2 m c (Proc.devRef .tc main_v1) = Cert.Spec.upd (m ((c : Thread nD τ).loc main_arg0)) (m ((c : Thread nD τ).loc main_arg2)) (m ((c : Thread nD τ).loc main_arg4)) := by
  refine (W2_arr m c 2).trans ((final0 (a0 m) (V1 m) c).trans ?_)
  have hA : V1 m c main_arg0 = m ((c : Thread nD τ).loc main_arg0) := V1_arg m c main_arg0 (by decide)
  have hN : V1 m c main_arg2 = m ((c : Thread nD τ).loc main_arg2) := V1_arg m c main_arg2 (by decide)
  have hP := pos_eq m c ((a0 m).1 0) (by obtain rfl : c = 0 := Subsingleton.elim _ _; exact table_eq m 0)
  rw [hA, hN, hP]

/-- What pallas call 1 leaves in its output array: pallas call 0 wrote neither its inputs nor the table. -/
theorem out1_eq (c : Dev nD) :
    W3 m c (Proc.devRef .tc main_v2) = Cert.Spec.upd (m ((c : Thread nD τ).loc main_arg1)) (m ((c : Thread nD τ).loc main_arg3)) (m ((c : Thread nD τ).loc main_arg4)) := by
  refine (W3_arr m c 2).trans ((final1 (a1 m) (V2 m) c).trans ?_)
  have hA : V2 m c main_arg1 = m ((c : Thread nD τ).loc main_arg1) := (W2_of_ne m c main_arg1 (by decide)).trans (V1_arg m c main_arg1 (by decide))
  have hN : V2 m c main_arg3 = m ((c : Thread nD τ).loc main_arg3) := (W2_of_ne m c main_arg3 (by decide)).trans (V1_arg m c main_arg3 (by decide))
  have hP := pos_eq m c ((a1 m).1 0) (by obtain rfl : c = 0 := Subsingleton.elim _ _; exact table_eq m 0)
  rw [hA, hN, hP]

/-- THE RESULT: after the host stacking, the result buffer holds the two updated caches stacked. -/
theorem result_eq (c : Dev nD) :
    W4 m c (Proc.devRef .tc main_v5)
      = Cert.Spec.stack bcast_S2x8x8x4096x128_S1x2x8x8x4096x128_1_2_3_4_5 concatenates_S1x2x8x8x4096x128_S1x2x8x8x4096x128_S2x2x8x8x4096x128_d0
          (Cert.Spec.upd (m ((c : Thread nD τ).loc main_arg0)) (m ((c : Thread nD τ).loc main_arg2)) (m ((c : Thread nD τ).loc main_arg4)))
          (Cert.Spec.upd (m ((c : Thread nD τ).loc main_arg1)) (m ((c : Thread nD τ).loc main_arg3)) (m ((c : Thread nD τ).loc main_arg4))) := by
  rw [← out0_eq m c, ← out1_eq m c, ← W3_of_ne m c main_v1 (by decide)]
  show StableHlo.after hostOps2 (W3 m c) (Proc.devRef .tc main_v5) = _
  after_results
  rfl

end Whole

end Cert.KernelIdeal.Rows

end
-- ==== Proof.RefScatter.lean ====
/-
  The reference's cache update, read at an index.

  The reference writes the new token's row into a key/value cache `x : [2, 8, 8, 4096, 128]` (layer, batch entry, head,
  row, lane) by ONE scatter. Its index array holds, for batch entry `b`, the pair (`b`, `pos b`), each component wrapped
  once if negative; its updates are the new token's array `[2, 8, 8, 1, 128]` with the axes permuted to `[8, 1, 2, 8, 128]`.
  The scatter is a left fold over the update indices in row-major order: each update index that lands inside the
  operand replaces the element it lands at.

  Here, with every `pos b` in `[0, 4096)`, update index `(b, 0, l, h, d)` lands at cache index `(l, b, h, pos b, d)`.
  Distinct update indices land at distinct cache indices and none is dropped, so the fold at cache index `i` is the new
  token's value when row `i 3` is batch entry `i 1`'s position, and the old cache value otherwise: `Cert.Spec.upd`.

  The file goes in four steps: a fold of point updates read at a point (over any list); the start and window
  coordinates of this scatter's dimension numbers; the index array read at its two components; the assembly.
-/
import proofs.«414916_j8864812499506_1_alg».proof.ReferenceIdeal
import proofs.«414916_j8864812499506_1_alg».proof.Proof.Spec
import Idealize.ShloMosaic.Lib.ValueIdx
import Idealize.ShloMosaic.Lib.Pipeline.Value
noncomputable section
namespace Cert.ReferenceIdeal.RefValue
open Idealize.ShloMosaic Cert.ReferenceIdeal

namespace Scatter

/-! ## A fold of point updates, read at a point -/

section Fold
variable {I J α : Type} [DecidableEq I]

/-- One step of a scatter's fold: update index `n` replaces the element at the point it lands at, by the body `f` of the old
    element and the update, if it lands anywhere. -/
def setStep (f : α → α → α) (g : J → Option I) (v : J → α) (r : I → α) (n : J) : I → α :=
  match g n with
  | some i0 => fun i' => if i' = i0 then f (r i0) (v n) else r i'
  | none => r

theorem setStep_of_ne (f : α → α → α) (g : J → Option I) (v : J → α) (r : I → α) (n : J) (i : I) (h : g n ≠ some i) :
    setStep f g v r n i = r i := by
  unfold setStep
  cases hg : g n with
  | none => rfl
  | some i0 =>
    have : i ≠ i0 := fun e => h (by rw [hg, e])
    simp [this]

theorem setStep_of_eq (g : J → Option I) (v : J → α) (r : I → α) (n : J) (i : I) (h : g n = some i) :
    setStep (fun _ b => b) g v r n i = v n := by
  unfold setStep
  rw [h]
  simp

/-- No update index of the list lands at `i`: the fold leaves `i` as it was. -/
theorem foldl_setStep_of_forall_ne (f : α → α → α) (g : J → Option I) (v : J → α) (i : I) :
    ∀ (l : List J) (x : I → α), (∀ n ∈ l, g n ≠ some i) → l.foldl (setStep f g v) x i = x i
  | [], _, _ => rfl
  | n :: l, x, h => by
    rw [List.foldl_cons, foldl_setStep_of_forall_ne f g v i l _ (fun m hm => h m (List.mem_cons_of_mem _ hm)),
      setStep_of_ne f g v x n i (h n (List.mem_cons_self ..))]

/-- Exactly one update index of the list lands at `i`, and the body returns the update: the fold holds that index's update there. -/
theorem foldl_setStep_of_unique (g : J → Option I) (v : J → α) (i : I) (n : J) (hn : g n = some i) :
    ∀ (l : List J) (x : I → α), n ∈ l → (∀ m ∈ l, g m = some i → m = n) → l.foldl (setStep (fun _ b => b) g v) x i = v n
  | [], _, h, _ => absurd h (List.not_mem_nil)
  | m :: l, x, hmem, huniq => by
    rw [List.foldl_cons]
    by_cases hl : n ∈ l
    · exact foldl_setStep_of_unique g v i n hn l _ hl (fun m' hm' => huniq m' (List.mem_cons_of_mem _ hm'))
    · have hmn : n = m := by
        rcases List.mem_cons.1 hmem with h | h
        · exact h
        · exact absurd h hl
      subst hmn
      rw [foldl_setStep_of_forall_ne _ g v i l _ (fun m' hm' hg => hl (huniq m' (List.mem_cons_of_mem _ hm') hg ▸ hm')),
        setStep_of_eq g v x n i hn]

end Fold

/-- The scatter is the fold of that step over the update indices in row-major order. -/
theorem scatter_eq_foldl {s si u : Shape} {w : Nat} {α : Type} (d : ScatterDims s si u) (f : α → α → α) (x : s.Idx → α)
    (idx : IVec si w) (upd : u.Idx → α) :
    Host.scatter d f x idx upd
      = (List.finRange u.numel).foldl
          (setStep f (fun n => d.resultIdx? (u.rowMajor.symm n) idx) (fun n => upd (u.rowMajor.symm n))) x := by
  unfold Host.scatter
  congr 1
  funext r n
  unfold setStep
  dsimp only
  cases d.resultIdx? (u.rowMajor.symm n) idx <;> rfl

/-- A scatter whose body returns the update, read at `i`, when no update index lands at `i`: the operand's element. -/
theorem scatter_apply_of_forall_ne {s si u : Shape} {w : Nat} {α : Type} (d : ScatterDims s si u) (x : s.Idx → α)
    (idx : IVec si w) (upd : u.Idx → α) (i : s.Idx) (h : ∀ j : u.Idx, d.resultIdx? j idx ≠ some i) :
    Host.scatter d (fun _ b => b) x idx upd i = x i := by
  rw [scatter_eq_foldl]
  exact foldl_setStep_of_forall_ne _ _ _ i _ x (fun n _ => h _)

/-- A scatter whose body returns the update, read at `i`, when exactly one update index `j` lands at `i`: that update. -/
theorem scatter_apply_of_unique {s si u : Shape} {w : Nat} {α : Type} (d : ScatterDims s si u) (x : s.Idx → α)
    (idx : IVec si w) (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have e := foldl_setStep_of_unique (fun n => d.resultIdx? (u.rowMajor.symm n) idx) (fun n => upd (u.rowMajor.symm n)) i
    (u.rowMajor j) (by simp only [Equiv.symm_apply_apply]; exact hj) (List.finRange u.numel) x (List.mem_finRange _)
    (fun m _ hm => by
      have := huniq _ hm
      rw [← this, Equiv.apply_symm_apply])
  rw [e]
  simp only [Equiv.symm_apply_apply]

/-! ## Where an update index lands, for this scatter's dimension numbers -/

section Dims
variable [Facts]
open Facts₀ Facts
open Idealize.ShloMosaic.ValueIdx

local macro "dd" : term => `(scatter_S2x8x8x4096x128_S8x1x2_S8x1x2x8x128_234_13_13_2)

theorem siIdx_of (j : S8x1x2x8x128.Idx) (c : Fin (dd).scatterDimsToOperandDims.length) :
    (dd).siIdx j c = ix3 (n0 := 8) (n1 := 1) (n2 := 2) (j 0) (j 1) ⟨c.val, c.isLt⟩ := by
  funext b; refine Fin.ext ?_
  match b with
  | ⟨0, _⟩ => rfl
  | ⟨1, _⟩ => rfl
  | ⟨2, _⟩ => rfl

theorem start_0 {w : Nat} (j : S8x1x2x8x128.Idx) (idx : IVec S8x1x2 w) : (dd).start j idx 0 = 0 := rfl
theorem start_2 {w : Nat} (j : S8x1x2x8x128.Idx) (idx : IVec S8x1x2 w) : (dd).start j idx 2 = 0 := rfl
theorem start_4 {w : Nat} (j : S8x1x2x8x128.Idx) (idx : IVec S8x1x2 w) : (dd).start j idx 4 = 0 := rfl
theorem start_1 {w : Nat} (j : S8x1x2x8x128.Idx) (idx : IVec S8x1x2 w) :
    (dd).start j idx 1 = (idx (ix3 (n0 := 8) (n1 := 1) (n2 := 2) (j 0) (j 1) 0)).toInt := by
  unfold ScatterDims.start
  have hm : (1 : Fin 5) ∈ (dd).scatterDimsToOperandDims := show (1 : Fin 5) ∈ ([1, 3] : List (Fin 5)) by decide
  rw [dif_pos hm, siIdx_of]
  rfl
theorem start_3 {w : Nat} (j : S8x1x2x8x128.Idx) (idx : IVec S8x1x2 w) :
    (dd).start j idx 3 = (idx (ix3 (n0 := 8) (n1 := 1) (n2 := 2) (j 0) (j 1) 1)).toInt := by
  unfold ScatterDims.start
  have hm : (3 : Fin 5) ∈ (dd).scatterDimsToOperandDims := show (3 : Fin 5) ∈ ([1, 3] : List (Fin 5)) by decide
  rw [dif_pos hm, siIdx_of]
  rfl

theorem window_0 (j : S8x1x2x8x128.Idx) : (dd).window j 0 = (j 2).val := rfl
theorem window_1 (j : S8x1x2x8x128.Idx) : (dd).window j 1 = 0 := rfl
theorem window_2 (j : S8x1x2x8x128.Idx) : (dd).window j 2 = (j 3).val := rfl
theorem window_3 (j : S8x1x2x8x128.Idx) : (dd).window j 3 = 0 := rfl
theorem window_4 (j : S8x1x2x8x128.Idx) : (dd).window j 4 = (j 4).val := rfl

end Dims

end Scatter

/-! ## The index array -/

section IndexArray
variable [Facts]
open Facts₀ Facts
open Idealize.ShloMosaic.ValueIdx

/-- The index array the reference scatters by: per batch entry its own number and its row, each wrapped once if negative. -/
def scatterIdx (pos : IVec S8x1 32) : IVec S8x1x2 32 :=
  concatenate S8x1x2 2
    [⟨S8x1x1, broadcastInDim S8x1x1 ![0, 1] bcast_S8x1_S8x1x1_0_1
        (select (cmpi .slt (broadcastInDim S8x1 ![0] bcast_S8_S8x1_0 (iotaInDim S8 32 0)) (broadcastInDim S8x1 ![] bcast_S_S8x1 (constantI S_ 32 0#32)))
          (addi (broadcastInDim S8x1 ![0] bcast_S8_S8x1_0 (iotaInDim S8 32 0)) (broadcastInDim S8x1 ![] bcast_S_S8x1 (constantI S_ 32 8#32)))
          (broadcastInDim S8x1 ![0] bcast_S8_S8x1_0 (iotaInDim S8 32 0)))⟩,
     ⟨S8x1x1, broadcastInDim S8x1x1 ![0, 1] bcast_S8x1_S8x1x1_0_1
        (select (cmpi .slt pos (broadcastInDim S8x1 ![] bcast_S_S8x1 (constantI S_ 32 0#32)))
          (addi pos (broadcastInDim S8x1 ![] bcast_S_S8x1 (constantI S_ 32 4096#32)))
          pos)⟩]
    concatenates_S8x1x1_S8x1x1_S8x1x2_d2

end IndexArray

namespace Scatter

/-! ## The index array, read at its two components -/

section Index
variable [Facts]
open Facts₀ Facts
open Idealize.ShloMosaic.ValueIdx

/-- A batch entry's number, as a word, is not negative. -/
theorem iota_not_slt : ∀ b : Fin 8, (BitVec.ofNat 32 b.val).slt 0#32 = false := by decide

/-- A select on "is negative" of a word that is not negative keeps the word. -/
theorem select_slt_zero_of_nonneg (p q : BitVec 32) (h : 0 ≤ p.toInt) :
    Scalar.select (IntOp.cmpi .slt p 0#32) q p = p := by
  have : p.slt 0#32 = false := by
    rw [BitVec.slt_eq_decide]
    simp only [BitVec.toInt_zero, decide_eq_false_iff_not, not_lt]
    exact h
  show Scalar.select (BitVec.ofBool (p.slt 0#32)) q p = p
  rw [this]
  exact select_zero _ _

/-- Component 0 of batch entry `b`'s index vector: the entry's own number. -/
theorem scatterIdx_0 (pos : IVec S8x1 32) (b : Fin 8) (u : Fin 1) :
    scatterIdx pos (ix3 (n0 := 8) (n1 := 1) (n2 := 2) b u 0) = BitVec.ofNat 32 b.val := by
  unfold scatterIdx
  rw [concatenate_pair_apply_left (t := S8x1x2) (s₁ := S8x1x1) (s₂ := S8x1x1) (2 : Fin 3) _ _ concatenates_S8x1x1_S8x1x1_S8x1x2_d2 (ix3 (n0 := 8) (n1 := 1) (n2 := 2) b u 0) rfl
    (ix3 (n0 := 8) (n1 := 1) (n2 := 1) b u 0) (fun a => match a with | ⟨0, _⟩ => rfl | ⟨1, _⟩ => rfl | ⟨2, _⟩ => rfl)]
  rw [broadcastInDim_apply (s := S8x1) (t := S8x1x1) _ bcast_S8x1_S8x1x1_0_1 _ (ix3 (n0 := 8) (n1 := 1) (n2 := 1) b u 0) (ix2 (n0 := 8) (n1 := 1) b u)
    (fun a => match a with | ⟨0, _⟩ => rfl | ⟨1, _⟩ => by show u.val = 0; omega)]
  show Scalar.select (BitVec.ofBool ((BitVec.ofNat 32 b.val).slt 0#32)) (IntOp.addi (BitVec.ofNat 32 b.val) 8#32) (BitVec.ofNat 32 b.val)
    = BitVec.ofNat 32 b.val
  rw [iota_not_slt b]
  exact select_zero _ _

/-- Component 1 of batch entry `b`'s index vector: the entry's row, which is not negative and so is not wrapped. -/
theorem scatterIdx_1 (pos : IVec S8x1 32) (b : Fin 8) (u : Fin 1) (h : 0 ≤ (pos (ix2 (n0 := 8) (n1 := 1) b u)).toInt) :
    scatterIdx pos (ix3 (n0 := 8) (n1 := 1) (n2 := 2) b u 1) = pos (ix2 (n0 := 8) (n1 := 1) b u) := by
  unfold scatterIdx
  rw [concatenate_pair_apply_right (t := S8x1x2) (s₁ := S8x1x1) (s₂ := S8x1x1) (2 : Fin 3) _ _ concatenates_S8x1x1_S8x1x1_S8x1x2_d2
    (ix3 (n0 := 8) (n1 := 1) (n2 := 2) b u 1) rfl rfl
    (ix3 (n0 := 8) (n1 := 1) (n2 := 1) b u 0)
    (fun a => match a with | ⟨0, _⟩ => fun _ => rfl | ⟨1, _⟩ => fun _ => rfl | ⟨2, _⟩ => fun hne => absurd rfl hne) rfl]
  rw [broadcastInDim_apply (s := S8x1) (t := S8x1x1) _ bcast_S8x1_S8x1x1_0_1 _ (ix3 (n0 := 8) (n1 := 1) (n2 := 1) b u 0) (ix2 (n0 := 8) (n1 := 1) b u)
    (fun a => match a with | ⟨0, _⟩ => rfl | ⟨1, _⟩ => by show u.val = 0; omega)]
  exact select_slt_zero_of_nonneg _ _ h

end Index

/-! ## Where update index `j` lands, and the scatter read at an index -/

section Main
variable [Facts]
open Facts₀ Facts
open Idealize.ShloMosaic.ValueIdx

local macro "dd" : term => `(scatter_S2x8x8x4096x128_S8x1x2_S8x1x2x8x128_234_13_13_2)

/-- A batch entry's number, as a word, read as a signed integer, is the number. -/
theorem iota_toInt : ∀ b : Fin 8, (BitVec.ofNat 32 b.val).toInt = (b.val : Int) := by decide

/-- The cache index update index `j = (b, 0, l, h, d)` lands at: `(l, b, h, pos b, d)`. -/
def land (pos : IVec S8x1 32) (hpos : ∀ i : S8x1.Idx, 0 ≤ (pos i).toInt ∧ (pos i).toInt < 4096) (j : S8x1x2x8x128.Idx) :
    S2x8x8x4096x128.Idx :=
  ix5 (n0 := 2) (n1 := 8) (n2 := 8) (n3 := 4096) (n4 := 128) (j 2) (j 0) (j 3)
    ⟨(pos (ix2 (n0 := 8) (n1 := 1) (j 0) (j 1))).toInt.toNat, by
      have := hpos (ix2 (n0 := 8) (n1 := 1) (j 0) (j 1)); omega⟩ (j 4)

theorem resultIdx?_eq (pos : IVec S8x1 32) (hpos : ∀ i : S8x1.Idx, 0 ≤ (pos i).toInt ∧ (pos i).toInt < 4096)
    (j : S8x1x2x8x128.Idx) : (dd).resultIdx? j (scatterIdx pos) = some (land pos hpos j) := by
  have hp := hpos (ix2 (n0 := 8) (n1 := 1) (j 0) (j 1))
  have T0 : (dd).start j (scatterIdx pos) 0 + (dd).window j 0 = ((j 2).val : Int) := by
    rw [start_0, window_0]; omega
  have T1 : (dd).start j (scatterIdx pos) 1 + (dd).window j 1 = ((j 0).val : Int) := by
    rw [start_1, window_1, scatterIdx_0 pos (j 0) (j 1), iota_toInt (j 0)]; omega
  have T2 : (dd).start j (scatterIdx pos) 2 + (dd).window j 2 = ((j 3).val : Int) := by
    rw [start_2, window_2]; omega
  have T3 : (dd).start j (scatterIdx pos) 3 + (dd).window j 3 = (pos (ix2 (n0 := 8) (n1 := 1) (j 0) (j 1))).toInt := by
    rw [start_3, window_3, scatterIdx_1 pos (j 0) (j 1) hp.1]; omega
  have T4 : (dd).start j (scatterIdx pos) 4 + (dd).window j 4 = ((j 4).val : Int) := by
    rw [start_4, window_4]; omega
  have h0 : (j 0).val < 8 := (j 0).isLt
  have h2 : (j 2).val < 2 := (j 2).isLt
  have h3 : (j 3).val < 8 := (j 3).isLt
  have h4 : (j 4).val < 128 := (j 4).isLt
  have H : ∀ a, 0 ≤ (dd).start j (scatterIdx pos) a + (dd).window j a
      ∧ (dd).start j (scatterIdx pos) a + (dd).window j a < S2x8x8x4096x128.size a := fun a =>
    match a with
    | ⟨0, _⟩ => by
      show 0 ≤ (dd).start j (scatterIdx pos) 0 + (dd).window j 0 ∧ (dd).start j (scatterIdx pos) 0 + (dd).window j 0 < ((2 : Nat) : Int)
      rw [T0]; omega
    | ⟨1, _⟩ => by
      show 0 ≤ (dd).start j (scatterIdx pos) 1 + (dd).window j 1 ∧ (dd).start j (scatterIdx pos) 1 + (dd).window j 1 < ((8 : Nat) : Int)
      rw [T1]; omega
    | ⟨2, _⟩ => by
      show 0 ≤ (dd).start j (scatterIdx pos) 2 + (dd).window j 2 ∧ (dd).start j (scatterIdx pos) 2 + (dd).window j 2 < ((8 : Nat) : Int)
      rw [T2]; omega
    | ⟨3, _⟩ => by
      show 0 ≤ (dd).start j (scatterIdx pos) 3 + (dd).window j 3 ∧ (dd).start j (scatterIdx pos) 3 + (dd).window j 3 < ((4096 : Nat) : Int)
      rw [T3]; omega
    | ⟨4, _⟩ => by
      show 0 ≤ (dd).start j (scatterIdx pos) 4 + (dd).window j 4 ∧ (dd).start j (scatterIdx pos) 4 + (dd).window j 4 < ((128 : Nat) : Int)
      rw [T4]; omega
  unfold ScatterDims.resultIdx?
  rw [dif_pos H]
  congr 1
  funext a
  refine Fin.ext ?_
  match a with
  | ⟨0, _⟩ =>
    show ((dd).start j (scatterIdx pos) 0 + (dd).window j 0).toNat = (j 2).val
    rw [T0]; omega
  | ⟨1, _⟩ =>
    show ((dd).start j (scatterIdx pos) 1 + (dd).window j 1).toNat = (j 0).val
    rw [T1]; omega
  | ⟨2, _⟩ =>
    show ((dd).start j (scatterIdx pos) 2 + (dd).window j 2).toNat = (j 3).val
    rw [T2]; omega
  | ⟨3, _⟩ =>
    show ((dd).start j (scatterIdx pos) 3 + (dd).window j 3).toNat = (pos (ix2 (n0 := 8) (n1 := 1) (j 0) (j 1))).toInt.toNat
    rw [T3]
  | ⟨4, _⟩ =>
    show ((dd).start j (scatterIdx pos) 4 + (dd).window j 4).toNat = (j 4).val
    rw [T4]; omega

/-- A row number below 4096 is the word `p` exactly when `p`, read signed and known to lie in `[0, 4096)`, is that number. -/
theorem ofNat_eq_iff_toInt (p : BitVec 32) (r : Nat) (hr : r < 4096) (h0 : 0 ≤ p.toInt) :
    BitVec.ofNat 32 r = p ↔ p.toInt.toNat = r := by
  have hc := BitVec.toInt_eq_toNat_cond p
  have key : p.toInt = (p.toNat : Int) := by
    by_cases hlt : 2 * p.toNat < 2 ^ 32
    · rw [hc, if_pos hlt]
    · rw [hc, if_neg hlt] at h0
      have := p.isLt
      omega
  rw [← BitVec.toNat_inj, BitVec.toNat_ofNat, key, Int.toNat_natCast, Nat.mod_eq_of_lt (by omega)]
  exact eq_comm

/-- The update index that writes cache index `i`, when one does: `i`'s batch entry, layer, head and lane. -/
abbrev updIdx (i : S2x8x8x4096x128.Idx) : S8x1x2x8x128.Idx :=
  ix5 (n0 := 8) (n1 := 1) (n2 := 2) (n3 := 8) (n4 := 128) (i 1) 0 (i 0) (i 2) (i 4)

end Main

end Scatter

section Assembly
variable [Facts]
open Facts₀ Facts
open Idealize.ShloMosaic.ValueIdx
open Scatter

local macro "dd" : term => `(scatter_S2x8x8x4096x128_S8x1x2_S8x1x2x8x128_234_13_13_2)

/-- THE SCATTER READ AT AN INDEX: the new token's value on the row each batch entry names, the old cache elsewhere. -/
theorem scatter_eq {α : Type} (x : S2x8x8x4096x128.Idx → α) (new : S2x8x8x1x128.Idx → α) (pos : IVec S8x1 32)
    (hpos : ∀ i : S8x1.Idx, 0 ≤ (pos i).toInt ∧ (pos i).toInt < 4096) :
    Host.scatter scatter_S2x8x8x4096x128_S8x1x2_S8x1x2x8x128_234_13_13_2 (fun _ b => b) x (scatterIdx pos)
        (transpose S8x1x2x8x128 [1, 3, 0, 2, 4] new transposes_S2x8x8x1x128_S8x1x2x8x128_1_3_0_2_4)
      = Cert.Spec.upd x new pos := by
  funext i
  rw [Cert.Spec.upd_apply]
  have hp := hpos (ix2 (n0 := 8) (n1 := 1) (i 1) 0)
  have hrow := ofNat_eq_iff_toInt (pos (ix2 (n0 := 8) (n1 := 1) (i 1) 0)) (i 3).val (i 3).isLt hp.1
  by_cases hc : BitVec.ofNat 32 (i 3).val = pos (Cert.Spec.posIdx i)
  · rw [if_pos hc]
    have hj : (dd).resultIdx? (updIdx i) (scatterIdx pos) = some i := by
      rw [resultIdx?_eq pos hpos (updIdx i)]
      congr 1
      funext a; refine Fin.ext ?_
      match a with
      | ⟨0, _⟩ => rfl
      | ⟨1, _⟩ => rfl
      | ⟨2, _⟩ => rfl
      | ⟨3, _⟩ => exact hrow.1 hc
      | ⟨4, _⟩ => rfl
    have huniq : ∀ j' : S8x1x2x8x128.Idx, (dd).resultIdx? j' (scatterIdx pos) = some i → j' = updIdx i := by
      intro j' h'
      rw [resultIdx?_eq pos hpos j'] at h'
      have hl : land pos hpos j' = i := Option.some.inj h'
      funext a
      match a with
      | ⟨0, _⟩ => exact congrFun hl 1
      | ⟨1, _⟩ => exact Subsingleton.elim (α := Fin 1) _ _
      | ⟨2, _⟩ => exact congrFun hl 0
      | ⟨3, _⟩ => exact congrFun hl 2
      | ⟨4, _⟩ => exact congrFun hl 4
    rw [scatter_apply_of_unique (dd) x (scatterIdx pos) _ i (updIdx i) hj huniq]
    exact transpose_apply (s := S2x8x8x1x128) (t := S8x1x2x8x128) _ new transposes_S2x8x8x1x128_S8x1x2x8x128_1_3_0_2_4 (updIdx i)
      (Cert.Spec.newIdx i)
      (fun b => match b with | ⟨0, _⟩ => rfl | ⟨1, _⟩ => rfl | ⟨2, _⟩ => rfl | ⟨3, _⟩ => rfl | ⟨4, _⟩ => rfl)
  · rw [if_neg hc]
    refine scatter_apply_of_forall_ne (dd) x (scatterIdx pos) _ i (fun j' h' => hc ?_)
    rw [resultIdx?_eq pos hpos j'] at h'
    have hl : land pos hpos j' = i := Option.some.inj h'
    have e0 : (j' 0 : Fin 8) = (i 1 : Fin 8) := congrFun hl 1
    have e1 : (j' 1 : Fin 1) = (0 : Fin 1) := Subsingleton.elim (α := Fin 1) _ _
    have e3 : (pos (ix2 (n0 := 8) (n1 := 1) (j' 0) (j' 1))).toInt.toNat = (i 3).val := congrArg Fin.val (congrFun hl 3)
    rw [e0, e1] at e3
    exact hrow.2 e3

end Assembly

end Cert.ReferenceIdeal.RefValue
-- ==== Proof.PreRange.lean ====
import proofs.«414916_j8864812499506_1_alg».proof.Pre_finite_inputs
import Idealize.ShloMosaic.Lib.StableHlo.Predicate
import Idealize.ShloMosaic.Lib.ReduceAll
import Idealize.ShloMosaic.Lib.ValueIdx
noncomputable section
namespace Cert.Pre_finite_inputs.Range
open Idealize.ShloMosaic Cert.Pre_finite_inputs
variable {F : FTy → Type} [FloatOps F] [Facts]

/-- The rank-0 shape has exactly one index. -/
local instance : Subsingleton S_.Idx := ⟨fun a b => funext fun d => d.elim0⟩

/-- The tail of the precondition, read at an index. If the conjunction that ends the chain is one, then so is its
    last conjunct, the conjunction over all positions of `0 ≤ p` and `p < 4096` (signed); hence every position lies
    in [0, 4096). The earlier conjuncts stay opaque. -/
theorem part1_range (a4 : IVec S8x1 32) (v13 : IVec S_ 1) (v16 : IVec S2x8x8x1x128 1)
    (h : fn_part1 (F := F) a4 v13 v16 ValueIdx.ix0 = 1#1) :
    ∀ i : S8x1.Idx, 0 ≤ (a4 i).toInt ∧ (a4 i).toInt < 4096 := by
  intro i
  dsimp only [fn_part1] at h
  -- the last conjunct of the scalar conjunction
  have hlast := (IntOp.andi_eq_one.1 h).2
  -- a conjunction over all positions that is one is one at each position
  have hall := Host.reduce_andi_all _ _ _ _ _ hlast i
  obtain ⟨hge, hlt⟩ := IntOp.andi_eq_one.1 hall
  -- the two signed comparisons, against the constants 0 and 4096 laid over the array
  have hge' := IntOp.cmpi_sge.1 hge
  have hlt' := IntOp.cmpi_slt.1 hlt
  have e0 : broadcastInDim S8x1 ![] Facts.bcast_S_S8x1 (constantI S_ 32 0#32) i = 0#32 := rfl
  have e1 : broadcastInDim S8x1 ![] Facts.bcast_S_S8x1 (constantI S_ 32 4096#32) i = 4096#32 := rfl
  rw [e0] at hge'
  rw [e1] at hlt'
  have z0 : (0#32 : BitVec 32).toInt = 0 := by decide
  have z1 : (4096#32 : BitVec 32).toInt = 4096 := by decide
  rw [z0] at hge'
  rw [z1] at hlt'
  exact ⟨hge', hlt'⟩

/-- The precondition holds only if every position is a signed word in [0, 4096). -/
theorem pos_range (a0 a1 : FVec F S2x8x8x4096x128 .f32) (a2 a3 : FVec F S2x8x8x1x128 .f32) (a4 : IVec S8x1 32)
    (h : fn (F := F) a0 a1 a2 a3 a4 = fun _ => 1#1) :
    ∀ i : S8x1.Idx, 0 ≤ (a4 i).toInt ∧ (a4 i).toInt < 4096 := by
  have h0 := congrFun h ValueIdx.ix0
  dsimp only [fn] at h0
  exact part1_range a4 _ _ h0

end Cert.Pre_finite_inputs.Range
-- ==== Proof.lean ====
/-
  The certificate: a decode step's write into a key/value cache.

  The kernel program updates each cache by two pallas calls (keys, then values): per (layer, batch entry, head) it stages the
  4096 × 128 table, compares every row's number with the batch entry's position — read from a table of positions prefetched
  into scalar memory — and writes the table back with that one row replaced by the new token's; the host then stacks the two
  updated caches. The reference scatters the new token's rows into each cache at the index pairs (batch entry, position), each
  wrapped once if negative, and stacks. For positions inside the cache, 0 ≤ position < 4096 — the precondition's last
  conjunct — the scatter's index pairs are distinct and in range, so it replaces exactly row `position b` of every table of
  batch entry `b`: both programs compute `Cert.Spec.stack (Cert.Spec.upd k_cache new_keys pos) (Cert.Spec.upd v_cache new_values pos)`.
  No arithmetic is done on a float: the equality of the results is an equality of selections, and finiteness is never used.

  The three frames: each kernel program's run (the same text at the word-level instance and at the ideal one) ends with the
  arguments as launched; the reference's run is its list of host operations read back. The ideal pass rewrote nothing, so
  `preserves` is `True`.
-/
import proofs.«414916_j8864812499506_1_alg».proof.Defs
import proofs.«414916_j8864812499506_1_alg».proof.Proof.Gen.Kernel
import proofs.«414916_j8864812499506_1_alg».proof.Proof.Gen.KernelIdeal
import proofs.«414916_j8864812499506_1_alg».proof.Proof.Gen.ReferenceIdeal
import proofs.«414916_j8864812499506_1_alg».proof.Proof.Gen.Pre_finite_inputs
import proofs.«414916_j8864812499506_1_alg».proof.Proof.KBitsRun
import proofs.«414916_j8864812499506_1_alg».proof.Proof.KIdealValue
import proofs.«414916_j8864812499506_1_alg».proof.Proof.RefRun
import proofs.«414916_j8864812499506_1_alg».proof.Proof.RefScatter
import proofs.«414916_j8864812499506_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.Rows.frame (F := Bits) m ρ

/-- So does its idealization. -/
theorem frame_ki : @Cert.frame_KernelIdeal Cert.KernelIdeal.Gen.facts Cert.Pre_finite_inputs.Gen.facts :=
  fun m ρ _ => Cert.KernelIdeal.Rows.frame (F := Ideal) m ρ

/-- The reference is host operations only: its run read back, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The reference's composed result is the stacked pair of its two scatters. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v34 (F := Ideal) m' c
      = Cert.Spec.stack Cert.ReferenceIdeal.Gen.bcast_S2x8x8x4096x128_S1x2x8x8x4096x128_1_2_3_4_5
          Cert.ReferenceIdeal.Gen.concatenates_S1x2x8x8x4096x128_S1x2x8x8x4096x128_S2x2x8x8x4096x128_d0
          (Host.scatter Cert.ReferenceIdeal.scatter_S2x8x8x4096x128_S8x1x2_S8x1x2x8x128_234_13_13_2 (fun _ b => b)
            (m' ((c.tc : Thread Cert.ReferenceIdeal.nD Cert.ReferenceIdeal.τ).loc Cert.ReferenceIdeal.main_arg0))
            (Cert.ReferenceIdeal.RefValue.scatterIdx (m' ((c.tc : Thread Cert.ReferenceIdeal.nD Cert.ReferenceIdeal.τ).loc Cert.ReferenceIdeal.main_arg4)))
            (transpose Cert.ReferenceIdeal.S8x1x2x8x128 [1, 3, 0, 2, 4]
              (m' ((c.tc : Thread Cert.ReferenceIdeal.nD Cert.ReferenceIdeal.τ).loc Cert.ReferenceIdeal.main_arg2))
              Cert.ReferenceIdeal.Gen.transposes_S2x8x8x1x128_S8x1x2x8x128_1_3_0_2_4))
          (Host.scatter Cert.ReferenceIdeal.scatter_S2x8x8x4096x128_S8x1x2_S8x1x2x8x128_234_13_13_2 (fun _ b => b)
            (m' ((c.tc : Thread Cert.ReferenceIdeal.nD Cert.ReferenceIdeal.τ).loc Cert.ReferenceIdeal.main_arg1))
            (Cert.ReferenceIdeal.RefValue.scatterIdx (m' ((c.tc : Thread Cert.ReferenceIdeal.nD Cert.ReferenceIdeal.τ).loc Cert.ReferenceIdeal.main_arg4)))
            (transpose Cert.ReferenceIdeal.S8x1x2x8x128 [1, 3, 0, 2, 4]
              (m' ((c.tc : Thread Cert.ReferenceIdeal.nD Cert.ReferenceIdeal.τ).loc Cert.ReferenceIdeal.main_arg3))
              Cert.ReferenceIdeal.Gen.transposes_S2x8x8x1x128_S8x1x2x8x128_1_3_0_2_4)) := by
  unfold Cert.ReferenceIdeal.ValueP.res_main_v34
  rfl

/-- At the ideal instance, from memories agreeing on the arguments, both programs end with the stacked pair of updated caches. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.stack Cert.KernelIdeal.Gen.bcast_S2x8x8x4096x128_S1x2x8x8x4096x128_1_2_3_4_5
      Cert.KernelIdeal.Gen.concatenates_S1x2x8x8x4096x128_S1x2x8x8x4096x128_S2x2x8x8x4096x128_d0
      (Cert.Spec.upd (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4)))
      (Cert.Spec.upd (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · -- the kernel program: the result buffer and the arguments read off the last boundary's contents
    exact (θ_run Cert.KernelIdeal.defs _ _).mono (fun r h c =>
      ⟨(h c _ (Cert.KernelIdeal.Rows.mem_uc Cert.KernelIdeal.main_v5 (by decide))).trans (Cert.KernelIdeal.Rows.result_eq m c),
       (h c _ (Cert.KernelIdeal.Rows.mem_uc Cert.KernelIdeal.main_arg0 (by decide))).trans (Cert.KernelIdeal.Rows.arg_kept m c _ (.inl rfl)),
       (h c _ (Cert.KernelIdeal.Rows.mem_uc Cert.KernelIdeal.main_arg1 (by decide))).trans (Cert.KernelIdeal.Rows.arg_kept m c _ (.inr (.inl rfl))),
       (h c _ (Cert.KernelIdeal.Rows.mem_uc Cert.KernelIdeal.main_arg2 (by decide))).trans (Cert.KernelIdeal.Rows.arg_kept m c _ (.inr (.inr (.inl rfl)))),
       (h c _ (Cert.KernelIdeal.Rows.mem_uc Cert.KernelIdeal.main_arg3 (by decide))).trans (Cert.KernelIdeal.Rows.arg_kept m c _ (.inr (.inr (.inr (.inl rfl))))),
       (h c _ (Cert.KernelIdeal.Rows.mem_uc Cert.KernelIdeal.main_arg4 (by decide))).trans (Cert.KernelIdeal.Rows.arg_kept m c _ (.inr (.inr (.inr (.inr rfl)))))⟩)
      (Cert.KernelIdeal.Rows.run (F := Ideal) m ρ)
  · -- the reference: its two scatters are the two updates, the positions being inside the cache
    refine (θ_run Cert.ReferenceIdeal.defs _ _).mono (fun r h c => ⟨(h c).1.trans ?_, (h c).2⟩)
      (Cert.ReferenceIdeal.ValueP.run (F := Ideal) m' ρ')
    have hpos := Cert.Pre_finite_inputs.Range.pos_range (F := Ideal) _ _ _ _ _ (hpre c)
    obtain ⟨g0, g1, g2, g3, g4⟩ := hagree c
    rw [ref_result m' c, g0, g1, g2, g3, g4,
      Cert.ReferenceIdeal.RefValue.scatter_eq _ _ _ hpos, Cert.ReferenceIdeal.RefValue.scatter_eq _ _ _ hpos]

/-- Everything the certificate claims. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
